-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x32x512 : Shape := ⟨3, ![1024, 32, 512]⟩
abbrev S32x1024 : Shape := ⟨2, ![32, 1024]⟩
abbrev S_ : Shape := ⟨0, ![]⟩

class Facts : Prop where
  bcast_S_S1024x32x512 : S_.BroadcastsInDim S1024x32x512 (![] : Fin 0 → Fin S1024x32x512.rank)
  reducesTo_S1024x32x512_S_d0_1_2 : S1024x32x512.ReducesTo [0, 1, 2] S_
  h_S_ : 0 < S_.numel

variable [Facts]

def fn {F : FTy → Type} [FloatOps F] (main_arg0 : FVec F S1024x32x512 .f32) (main_arg1 : IVec S32x1024 32) : IVec S_ 1 :=
  let main_v0 : FVec F S1024x32x512 .f32 := Host.absf main_arg0
  let main_cst : FVec F S_ .f32 := constant S_ .f32 0x7F800000#32
  let main_v1 : FVec F S1024x32x512 .f32 := broadcastInDim S1024x32x512 ![] bcast_S_S1024x32x512 main_cst
  let main_v2 : IVec S1024x32x512 1 := cmpf .olt main_v0 main_v1
  let main_c : IVec S_ 1 := constantI S_ 1 1#1
  let main_v3 : IVec S_ 1 := (fun x v => Host.reduce IntOp.andi x v reducesTo_S1024x32x512_S_d0_1_2 h_S_) main_v2 main_c
  main_v3
-- ==== Kernel.lean ====
abbrev S1024x32x512 : Shape := ⟨3, ![1024, 32, 512]⟩
abbrev S32x1024 : Shape := ⟨2, ![32, 1024]⟩
abbrev S32x1024x1024 : Shape := ⟨3, ![32, 1024, 1024]⟩
abbrev S1024x8x512 : Shape := ⟨3, ![1024, 8, 512]⟩
abbrev S8x1024 : Shape := ⟨2, ![8, 1024]⟩
abbrev S256x8x512 : Shape := ⟨3, ![256, 8, 512]⟩
abbrev S8x256x1024 : Shape := ⟨3, ![8, 256, 1024]⟩
abbrev S256x1024 : Shape := ⟨2, ![256, 1024]⟩
abbrev S256x1x512 : Shape := ⟨3, ![256, 1, 512]⟩
abbrev S256x512 : Shape := ⟨2, ![256, 512]⟩
abbrev S1024x1x512 : Shape := ⟨3, ![1024, 1, 512]⟩
abbrev S1024x512 : Shape := ⟨2, ![1024, 512]⟩
abbrev S1x1024 : Shape := ⟨2, ![1, 1024]⟩
abbrev S1024 : Shape := ⟨1, ![1024]⟩
abbrev S256 : Shape := ⟨1, ![256]⟩
abbrev S256x1 : Shape := ⟨2, ![256, 1]⟩
abbrev S1x256x1024 : Shape := ⟨3, ![1, 256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S1024x32x512, .f32⟩
  | .hbm, ⟨1, _⟩ => ⟨S32x1024, .i32⟩
  | .hbm, ⟨2, _⟩ => ⟨S1024x32x512, .f32⟩
  | .hbm, ⟨3, _⟩ => ⟨S32x1024x1024, .f32⟩
  | .local _ .vmem, ⟨0, _⟩ => ⟨S1024x8x512, .f32⟩
  | .local _ .vmem, ⟨1, _⟩ => ⟨S1024x8x512, .f32⟩
  | .local _ .vmem, ⟨2, _⟩ => ⟨S8x1024, .i32⟩
  | .local _ .vmem, ⟨3, _⟩ => ⟨S8x1024, .i32⟩
  | .local _ .vmem, ⟨4, _⟩ => ⟨S256x8x512, .f32⟩
  | .local _ .vmem, ⟨5, _⟩ => ⟨S256x8x512, .f32⟩
  | .local _ .vmem, ⟨6, _⟩ => ⟨S8x256x1024, .f32⟩
  | .local _ .vmem, ⟨7, _⟩ => ⟨S8x256x1024, .f32⟩
  | _, _ => ⟨S1024x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let arg1 : BitVec 32 := BitVec.ofNat 32 (i 1).val
  let c256_i32 : BitVec 32 := 256#32
  let v0 : BitVec 32 := Scalar.muli arg1 c256_i32
  let v1 : BitVec 32 := v0
  let v7 : Index := Scalar.indexCast v1
  let c0 : Index := 0#32
  let c0_0 : Index := 0#32
  ![v7.toNat, 0, 0]
def k0_off2 (i : grid0.Coords) : Fin 3 → Nat :=
  let arg1 : BitVec 32 := BitVec.ofNat 32 (i 1).val
  let c256_i32 : BitVec 32 := 256#32
  let v0 : BitVec 32 := Scalar.muli arg1 c256_i32
  let v1 : BitVec 32 := v0
  let v41 : Index := Scalar.indexCast v1
  let c1 : Index := 1#32
  let c0_17 : Index := 0#32
  ![v41.toNat, 1, 0]
def k0_off3 (i : grid0.Coords) : Fin 3 → Nat :=
  let arg1 : BitVec 32 := BitVec.ofNat 32 (i 1).val
  let c256_i32 : BitVec 32 := 256#32
  let v0 : BitVec 32 := Scalar.muli arg1 c256_i32
  let v1 : BitVec 32 := v0
  let v75 : Index := Scalar.indexCast v1
  let c2 : Index := 2#32
  let c0_35 : Index := 0#32
  ![v75.toNat, 2, 0]
def k0_off4 (i : grid0.Coords) : Fin 3 → Nat :=
  let arg1 : BitVec 32 := BitVec.ofNat 32 (i 1).val
  let c256_i32 : BitVec 32 := 256#32
  let v0 : BitVec 32 := Scalar.muli arg1 c256_i32
  let v1 : BitVec 32 := v0
  let v109 : Index := Scalar.indexCast v1
  let c3 : Index := 3#32
  let c0_53 : Index := 0#32
  ![v109.toNat, 3, 0]
def k0_off5 (i : grid0.Coords) : Fin 3 → Nat :=
  let arg1 : BitVec 32 := BitVec.ofNat 32 (i 1).val
  let c256_i32 : BitVec 32 := 256#32
  let v0 : BitVec 32 := Scalar.muli arg1 c256_i32
  let v1 : BitVec 32 := v0
  let v143 : Index := Scalar.indexCast v1
  let c4 : Index := 4#32
  let c0_71 : Index := 0#32
  ![v143.toNat, 4, 0]
def k0_off6 (i : grid0.Coords) : Fin 3 → Nat :=
  let arg1 : BitVec 32 := BitVec.ofNat 32 (i 1).val
  let c256_i32 : BitVec 32 := 256#32
  let v0 : BitVec 32 := Scalar.muli arg1 c256_i32
  let v1 : BitVec 32 := v0
  let v177 : Index := Scalar.indexCast v1
  let c5 : Index := 5#32
  let c0_89 : Index := 0#32
  ![v177.toNat, 5, 0]
def k0_off7 (i : grid0.Coords) : Fin 3 → Nat :=
  let arg1 : BitVec 32 := BitVec.ofNat 32 (i 1).val
  let c256_i32 : BitVec 32 := 256#32
  let v0 : BitVec 32 := Scalar.muli arg1 c256_i32
  let v1 : BitVec 32 := v0
  let v211 : Index := Scalar.indexCast v1
  let c6 : Index := 6#32
  let c0_107 : Index := 0#32
  ![v211.toNat, 6, 0]
def k0_off8 (i : grid0.Coords) : Fin 3 → Nat :=
  let arg1 : BitVec 32 := BitVec.ofNat 32 (i 1).val
  let c256_i32 : BitVec 32 := 256#32
  let v0 : BitVec 32 := Scalar.muli arg1 c256_i32
  let v1 : BitVec 32 := v0
  let v245 : Index := Scalar.indexCast v1
  let c7 : Index := 7#32
  let c0_125 : Index := 0#32
  ![v245.toNat, 7, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  iota_S256x1024_d0_w32 : S256x1024.Iotas .tc 32 [0]
  iota_S256x1024_d1_w32 : S256x1024.Iotas .tc 32 [1]
  h_S256x1x512 : 0 < S256x1x512.numel
  shapeCasts_S256x1x512_S256x512 : S256x1x512.ShapeCasts S256x512
  inb_S1024x8x512_S1024x1x512_0_0_0 : ∀ a, (![0, 0, 0] : Fin 3 → Nat) a + S1024x1x512.size a ≤ S1024x8x512.size a
  h_S1024x1x512 : 0 < S1024x1x512.numel
  shapeCasts_S1024x1x512_S1024x512 : S1024x1x512.ShapeCasts S1024x512
  inb_S8x1024_S1x1024_0_0 : ∀ a, (![0, 0] : Fin 2 → Nat) a + S1x1024.size a ≤ S8x1024.size a
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  inb_S8x256x1024_S1x256x1024_0_0_0 : ∀ a, (![0, 0, 0] : Fin 3 → Nat) a + S1x256x1024.size a ≤ S8x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S256x8x512_S256x1x512_0_0_0 : ∀ a, (![0, 0, 0] : Fin 3 → Nat) a + S256x1x512.size a ≤ S256x8x512.size a
  shapeCasts_S256x512_S256x1x512 : S256x512.ShapeCasts S256x1x512
  inb_S1024x8x512_S1024x1x512_0_1_0 : ∀ a, (![0, 1, 0] : Fin 3 → Nat) a + S1024x1x512.size a ≤ S1024x8x512.size a
  inb_S8x1024_S1x1024_1_0 : ∀ a, (![1, 0] : Fin 2 → Nat) a + S1x1024.size a ≤ S8x1024.size a
  inb_S8x256x1024_S1x256x1024_1_0_0 : ∀ a, (![1, 0, 0] : Fin 3 → Nat) a + S1x256x1024.size a ≤ S8x256x1024.size a
  inb_S256x8x512_S256x1x512_0_1_0 : ∀ a, (![0, 1, 0] : Fin 3 → Nat) a + S256x1x512.size a ≤ S256x8x512.size a
  inb_S1024x8x512_S1024x1x512_0_2_0 : ∀ a, (![0, 2, 0] : Fin 3 → Nat) a + S1024x1x512.size a ≤ S1024x8x512.size a
  inb_S8x1024_S1x1024_2_0 : ∀ a, (![2, 0] : Fin 2 → Nat) a + S1x1024.size a ≤ S8x1024.size a
  inb_S8x256x1024_S1x256x1024_2_0_0 : ∀ a, (![2, 0, 0] : Fin 3 → Nat) a + S1x256x1024.size a ≤ S8x256x1024.size a
  inb_S256x8x512_S256x1x512_0_2_0 : ∀ a, (![0, 2, 0] : Fin 3 → Nat) a + S256x1x512.size a ≤ S256x8x512.size a
  inb_S1024x8x512_S1024x1x512_0_3_0 : ∀ a, (![0, 3, 0] : Fin 3 → Nat) a + S1024x1x512.size a ≤ S1024x8x512.size a
  inb_S8x1024_S1x1024_3_0 : ∀ a, (![3, 0] : Fin 2 → Nat) a + S1x1024.size a ≤ S8x1024.size a
  inb_S8x256x1024_S1x256x1024_3_0_0 : ∀ a, (![3, 0, 0] : Fin 3 → Nat) a + S1x256x1024.size a ≤ S8x256x1024.size a
  inb_S256x8x512_S256x1x512_0_3_0 : ∀ a, (![0, 3, 0] : Fin 3 → Nat) a + S256x1x512.size a ≤ S256x8x512.size a
  inb_S1024x8x512_S1024x1x512_0_4_0 : ∀ a, (![0, 4, 0] : Fin 3 → Nat) a + S1024x1x512.size a ≤ S1024x8x512.size a
  inb_S8x1024_S1x1024_4_0 : ∀ a, (![4, 0] : Fin 2 → Nat) a + S1x1024.size a ≤ S8x1024.size a
  inb_S8x256x1024_S1x256x1024_4_0_0 : ∀ a, (![4, 0, 0] : Fin 3 → Nat) a + S1x256x1024.size a ≤ S8x256x1024.size a
  inb_S256x8x512_S256x1x512_0_4_0 : ∀ a, (![0, 4, 0] : Fin 3 → Nat) a + S256x1x512.size a ≤ S256x8x512.size a
  inb_S1024x8x512_S1024x1x512_0_5_0 : ∀ a, (![0, 5, 0] : Fin 3 → Nat) a + S1024x1x512.size a ≤ S1024x8x512.size a
  inb_S8x1024_S1x1024_5_0 : ∀ a, (![5, 0] : Fin 2 → Nat) a + S1x1024.size a ≤ S8x1024.size a
  inb_S8x256x1024_S1x256x1024_5_0_0 : ∀ a, (![5, 0, 0] : Fin 3 → Nat) a + S1x256x1024.size a ≤ S8x256x1024.size a
  inb_S256x8x512_S256x1x512_0_5_0 : ∀ a, (![0, 5, 0] : Fin 3 → Nat) a + S256x1x512.size a ≤ S256x8x512.size a
  inb_S1024x8x512_S1024x1x512_0_6_0 : ∀ a, (![0, 6, 0] : Fin 3 → Nat) a + S1024x1x512.size a ≤ S1024x8x512.size a
  inb_S8x1024_S1x1024_6_0 : ∀ a, (![6, 0] : Fin 2 → Nat) a + S1x1024.size a ≤ S8x1024.size a
  inb_S8x256x1024_S1x256x1024_6_0_0 : ∀ a, (![6, 0, 0] : Fin 3 → Nat) a + S1x256x1024.size a ≤ S8x256x1024.size a
  inb_S256x8x512_S256x1x512_0_6_0 : ∀ a, (![0, 6, 0] : Fin 3 → Nat) a + S256x1x512.size a ≤ S256x8x512.size a
  inb_S1024x8x512_S1024x1x512_0_7_0 : ∀ a, (![0, 7, 0] : Fin 3 → Nat) a + S1024x1x512.size a ≤ S1024x8x512.size a
  inb_S8x1024_S1x1024_7_0 : ∀ a, (![7, 0] : Fin 2 → Nat) a + S1x1024.size a ≤ S8x1024.size a
  inb_S8x256x1024_S1x256x1024_7_0_0 : ∀ a, (![7, 0, 0] : Fin 3 → Nat) a + S1x256x1024.size a ≤ S8x256x1024.size a
  inb_S256x8x512_S256x1x512_0_7_0 : ∀ a, (![0, 7, 0] : Fin 3 → Nat) a + S256x1x512.size a ≤ S256x8x512.size a
  dot_S256x512_S1024x512_S256x1024_1_1_0_0_n_n_wf : DotDims.WF S256x512 S1024x512 S256x1024 [1] [1] [0] [0] [] []
  dot_S256x1024_S1024x512_S256x512_1_0_0_1_n_n_wf : DotDims.WF S256x1024 S1024x512 S256x512 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x1x512.size a ≤ S1024x8x512.size a
  k0_off2_inb : ∀ i : grid0.Coords, ∀ a, (k0_off2 i) a + S256x1x512.size a ≤ S1024x8x512.size a
  k0_off3_inb : ∀ i : grid0.Coords, ∀ a, (k0_off3 i) a + S256x1x512.size a ≤ S1024x8x512.size a
  k0_off4_inb : ∀ i : grid0.Coords, ∀ a, (k0_off4 i) a + S256x1x512.size a ≤ S1024x8x512.size a
  k0_off5_inb : ∀ i : grid0.Coords, ∀ a, (k0_off5 i) a + S256x1x512.size a ≤ S1024x8x512.size a
  k0_off6_inb : ∀ i : grid0.Coords, ∀ a, (k0_off6 i) a + S256x1x512.size a ≤ S1024x8x512.size a
  k0_off7_inb : ∀ i : grid0.Coords, ∀ a, (k0_off7 i) a + S256x1x512.size a ≤ S1024x8x512.size a
  k0_off8_inb : ∀ i : grid0.Coords, ∀ a, (k0_off8 i) a + S256x1x512.size a ≤ S1024x8x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8x512.size a ≤ S1024x32x512.size a
  hwx0_0 : ∀ i : grid0.Coords, EltTy.bits .f32 = 32 ∨ (Rect.block (s := S1024x32x512) S1024x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S32x1024.size a
  hwx0_1 : ∀ i : grid0.Coords, EltTy.bits .i32 = 32 ∨ (Rect.block (s := S32x1024) S8x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8x512.size a ≤ S1024x32x512.size a
  hwx0_2 : ∀ i : grid0.Coords, EltTy.bits .f32 = 32 ∨ (Rect.block (s := S1024x32x512) S256x8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x1024.size a ≤ S32x1024x1024.size a
  hwx0_3 : ∀ i : grid0.Coords, EltTy.bits .f32 = 32 ∨ (Rect.block (s := S32x1024x1024) S8x256x1024.size (cc0_transform_3 i) (hinb0_3 i)).WholeWords (EltTy.packing .f32)

variable [Facts₀]

def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg0) S1024x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x8x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x32x512 : Shape := ⟨3, ![1024, 32, 512]⟩
abbrev S32x1024 : Shape := ⟨2, ![32, 1024]⟩
abbrev S32x1024x512 : Shape := ⟨3, ![32, 1024, 512]⟩
abbrev S32x1024x1024 : Shape := ⟨3, ![32, 1024, 1024]⟩
abbrev S1024x1024 : Shape := ⟨2, ![1024, 1024]⟩
abbrev S_ : Shape := ⟨0, ![]⟩
abbrev S1x1024x1024 : Shape := ⟨3, ![1, 1024, 1024]⟩
abbrev S32x1x1024 : Shape := ⟨3, ![32, 1, 1024]⟩
abbrev S32x1024x1 : Shape := ⟨3, ![32, 1024, 1]⟩

abbrev nBuf : Space → Nat
  | .hbm => 37
  | .vmem => 0
  | .smem => 0
  | _ => 0

abbrev bufTy : (tb : Table) → Fin (tcTables nBuf tb) → BufTy
  | .hbm, ⟨0, _⟩ => ⟨S1024x32x512, .f32⟩
  | .hbm, ⟨1, _⟩ => ⟨S32x1024, .i32⟩
  | .hbm, ⟨2, _⟩ => ⟨S32x1024x512, .f32⟩
  | .hbm, ⟨3, _⟩ => ⟨S32x1024x1024, .f32⟩
  | .hbm, ⟨4, _⟩ => ⟨S1024x1024, .i32⟩
  | .hbm, ⟨5, _⟩ => ⟨S1024x1024, .i32⟩
  | .hbm, ⟨6, _⟩ => ⟨S_, .i32⟩
  | .hbm, ⟨7, _⟩ => ⟨S1024x1024, .i32⟩
  | .hbm, ⟨8, _⟩ => ⟨S1024x1024, .i32⟩
  | .hbm, ⟨9, _⟩ => ⟨S1024x1024, .i1⟩
  | .hbm, ⟨10, _⟩ => ⟨S1x1024x1024, .i1⟩
  | .hbm, ⟨11, _⟩ => ⟨S_, .f32⟩
  | .hbm, ⟨12, _⟩ => ⟨S32x1024x1024, .i1⟩
  | .hbm, ⟨13, _⟩ => ⟨S32x1024x1024, .f32⟩
  | .hbm, ⟨14, _⟩ => ⟨S32x1024x1024, .f32⟩
  | .hbm, ⟨15, _⟩ => ⟨S32x1024, .f32⟩
  | .hbm, ⟨16, _⟩ => ⟨S32x1x1024, .f32⟩
  | .hbm, ⟨17, _⟩ => ⟨S32x1024x1024, .f32⟩
  | .hbm, ⟨18, _⟩ => ⟨S32x1024x1024, .f32⟩
  | .hbm, ⟨19, _⟩ => ⟨S_, .f32⟩
  | .hbm, ⟨20, _⟩ => ⟨S32x1024, .f32⟩
  | .hbm, ⟨21, _⟩ => ⟨S32x1024x1, .f32⟩
  | .hbm, ⟨22, _⟩ => ⟨S32x1024x1024, .f32⟩
  | .hbm, ⟨23, _⟩ => ⟨S32x1024x1024, .f32⟩
  | .hbm, ⟨24, _⟩ => ⟨S32x1024x1024, .f32⟩
  | .hbm, ⟨25, _⟩ => ⟨S32x1024x1024, .f32⟩
  | .hbm, ⟨26, _⟩ => ⟨S32x1024x1024, .f32⟩
  | .hbm, ⟨27, _⟩ => ⟨S_, .f32⟩
  | .hbm, ⟨28, _⟩ => ⟨S32x1024, .f32⟩
  | .hbm, ⟨29, _⟩ => ⟨S32x1024x1, .f32⟩
  | .hbm, ⟨30, _⟩ => ⟨S_, .f32⟩
  | .hbm, ⟨31, _⟩ => ⟨S32x1024x1, .f32⟩
  | .hbm, ⟨32, _⟩ => ⟨S32x1024x1, .f32⟩
  | .hbm, ⟨33, _⟩ => ⟨S32x1024x1024, .f32⟩
  | .hbm, ⟨34, _⟩ => ⟨S32x1024x1024, .f32⟩
  | .hbm, ⟨35, _⟩ => ⟨S32x1024x512, .f32⟩
  | .hbm, ⟨36, _⟩ => ⟨S1024x32x512, .f32⟩
  | _, _ => ⟨S1024x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  transposes_S1024x32x512_S32x1024x512_1_0_2 : S1024x32x512.Transposes [1, 0, 2] S32x1024x512
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  bcast_S_S32x1024x1024 : S_.BroadcastsInDim S32x1024x1024 (![] : Fin 0 → Fin S32x1024x1024.rank)
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  reducesTo_S32x1024x1024_S32x1024_d2 : S32x1024x1024.ReducesTo [2] S32x1024
  h_S_ : 0 < S_.numel
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  bcast_S_S32x1024x1 : S_.BroadcastsInDim S32x1024x1 (![] : Fin 0 → Fin S32x1024x1.rank)
  transposes_S32x1024x512_S1024x32x512_1_0_2 : S32x1024x512.Transposes [1, 0, 2] S1024x32x512
  dot_S32x1024x512_S32x1024x512_S32x1024x1024_2_2_1_1_0_0_wf : DotDims.WF S32x1024x512 S32x1024x512 S32x1024x1024 [2] [2] [1] [1] [0] [0]
  dot_S32x1024x1024_S32x1024x512_S32x1024x512_2_1_1_2_0_0_wf : DotDims.WF S32x1024x1024 S32x1024x512 S32x1024x512 [2] [1] [1] [2] [0] [0]

variable [Facts₀]

def dot_S32x1024x512_S32x1024x512_S32x1024x1024_2_2_1_1_0_0 : DotDims S32x1024x512 S32x1024x512 S32x1024x1024 where
  lhsContracting := [2]
  rhsContracting := [2]
  lhsNonContracting := [1]
  rhsNonContracting := [1]
  lhsBatch := [0]
  rhsBatch := [0]
  wf := dot_S32x1024x512_S32x1024x512_S32x1024x1024_2_2_1_1_0_0_wf
def dot_S32x1024x1024_S32x1024x512_S32x1024x512_2_1_1_2_0_0 : DotDims S32x1024x1024 S32x1024x512 S32x1024x512 where
  lhsContracting := [2]
  rhsContracting := [1]
  lhsNonContracting := [1]
  rhsNonContracting := [2]
  lhsBatch := [0]
  rhsBatch := [0]
  wf := dot_S32x1024x1024_S32x1024x512_S32x1024x512_2_1_1_2_0_0_wf

class Facts : Prop extends Facts₀ where

variable [Facts]
-- ==== Proof.Spec.lean ====
/-
  Masked self-attention of one batch, index by index, on the extended reals.

  For one batch the rows of `h` are at once the queries and the keys: `K s d` is coordinate `d` of row `s`.
  With `M t` the integer mask word of key `t` and `μ t` its value as a real:
    score  s t = Σ_d K s d · K t d                      (row s against row t)
    masked s t = (0 if s = t else score s t) · μ t      (the diagonal is zeroed, then the key's mask multiplies)
    rowMax s   = max over t of masked s t                (from −∞)
    weight s t = exp (masked s t − rowMax s) · μ t
    denom  s   = Σ_t weight s t + ε
    alpha  s t = weight s t / denom s
    out    s d = Σ_t alpha s t · K t d
  The three literals (0, −∞, ε) are kept as their f32 words: both programs carry the same words, so none is evaluated.
  `alphaArr` and `outArr` lay these out over all 32 batches in the two result arrays' axis orders.
-/
import Idealize.ShloMosaic.PureOps.Ideal
import Idealize.ShloMosaic.PureOps.Ideal.Laws
import Idealize.ShloMosaic.Lib.ValueIdx

noncomputable section

namespace Cert.MaskedAttn

open Idealize.ShloMosaic Idealize.ShloMosaic.ValueIdx

/-- The f32 word of `0.0`, of `-∞` and of the softmax's `ε`, read at the ideal instance. -/
abbrev zeroW : EReal := Ideal.ofBits .f32 0x00000000#32
abbrev negInfW : EReal := Ideal.ofBits .f32 0xFF800000#32
abbrev epsW : EReal := Ideal.ofBits .f32 0x358637BD#32

section OneBatch

variable (K : Fin 1024 → Fin 512 → EReal) (M : Fin 1024 → BitVec 32)

/-- The mask word of key `t` as a real number. -/
def maskVal (t : Fin 1024) : EReal := FloatOps.sitofp (F := Ideal) .f32 (M t)

/-- Row `s` against row `t`. -/
def score (s t : Fin 1024) : EReal := ∑ d : Fin 512, K s d * K t d

/-- The score with the diagonal zeroed, times the key's mask value. -/
def masked (s t : Fin 1024) : EReal := (if s = t then zeroW else score K s t) * maskVal M t

/-- The largest masked score of row `s`. -/
def rowMax (s : Fin 1024) : EReal := (Finset.univ : Finset (Fin 1024)).fold max negInfW (fun t => masked K M s t)

/-- The unnormalised softmax weight. -/
def weight (s t : Fin 1024) : EReal := Ideal.exp (masked K M s t - rowMax K M s) * maskVal M t

/-- The normaliser of row `s`. -/
def denom (s : Fin 1024) : EReal := (∑ t : Fin 1024, weight K M s t) + epsW

/-- The attention weight of key `t` for query `s`. -/
def alpha (s t : Fin 1024) : EReal := Ideal.div (weight K M s t) (denom K M s)

/-- The attended value: the weights against the rows. -/
def out (s : Fin 1024) (d : Fin 512) : EReal := ∑ t : Fin 1024, alpha K M s t * K t d

end OneBatch

/-- Batch `b` of the `[1024, 32, 512]` input as rows, and of the `[32, 1024]` mask as a row of words. -/
def keys (h : (⟨3, ![1024, 32, 512]⟩ : Shape).Idx → EReal) (b : Fin 32) : Fin 1024 → Fin 512 → EReal :=
  fun s d => h (ix3 s b d)
def maskRow (mk : (⟨2, ![32, 1024]⟩ : Shape).Idx → BitVec 32) (b : Fin 32) : Fin 1024 → BitVec 32 :=
  fun t => mk (ix2 b t)

/-- The attention weights as the `[32, 1024, 1024]` array (batch, query, key). -/
def alphaArr (h : (⟨3, ![1024, 32, 512]⟩ : Shape).Idx → EReal) (mk : (⟨2, ![32, 1024]⟩ : Shape).Idx → BitVec 32) :
    (⟨3, ![32, 1024, 1024]⟩ : Shape).Idx → EReal :=
  fun j => alpha (keys h (j 0)) (maskRow mk (j 0)) (j 1) (j 2)

/-- The attended values as the `[1024, 32, 512]` array (query, batch, coordinate). -/
def outArr (h : (⟨3, ![1024, 32, 512]⟩ : Shape).Idx → EReal) (mk : (⟨2, ![32, 1024]⟩ : Shape).Idx → BitVec 32) :
    (⟨3, ![1024, 32, 512]⟩ : Shape).Idx → EReal :=
  fun j => out (keys h (j 1)) (maskRow mk (j 1)) (j 0) (j 2)

end Cert.MaskedAttn

end
-- ==== Proof.RefValue.lean ====
/-
  The reference, stage by stage, is the specification: its two results, read at an index through the
  generated read-at-an-index lemmas, are `alphaArr` and `outArr` of the two arguments.
-/
import proofs.«402815_j3109556322512_4_alg».proof.Proof.Gen.ReferenceIdeal.Read
import proofs.«402815_j3109556322512_4_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.MaskedAttn

variable (x0 : (⟨S1024x32x512, .f32⟩ : BufTy).Contents (Elt Ideal)) (x1 : (⟨S32x1024, .i32⟩ : BufTy).Contents (Elt Ideal))

/-! ### The stages at explicit coordinates

Throughout, `b` is the batch, `s` the query row, `t` the key row and `d` the coordinate inside a row. -/

/-- The transposed input at (b, s, d) is coordinate `d` of row `s` of batch `b`. -/
theorem v0_at (b : Fin 32) (s : Fin 1024) (d : Fin 512) :
    val_main_v0 (F := Ideal) x0 (ix3 b s d) = keys x0 b s d := by
  rw [val_main_v0_apply]
  exact congrArg x0 (funext fun a => Fin.ext (by
    match a with | ⟨0, _⟩ => rfl | ⟨1, _⟩ => rfl | ⟨2, _⟩ => rfl))

/-- The batched product of the rows with themselves at (b, s, t) is the score of row `s` against row `t`. -/
theorem v1_at (b : Fin 32) (s t : Fin 1024) :
    val_main_v1 (F := Ideal) x0 (ix3 b s t) = score (keys x0 b) s t := by
  rw [val_main_v1_apply]
  unfold score
  refine Finset.sum_congr rfl fun k _ => ?_
  have hl : lidx_main_v1 (ix3 b s t) k = ix3 b s k := funext fun a => Fin.ext (by
    match a with | ⟨0, _⟩ => rfl | ⟨1, _⟩ => rfl | ⟨2, _⟩ => rfl)
  have hr : ridx_main_v1 (ix3 b s t) k = ix3 b t k := funext fun a => Fin.ext (by
    match a with | ⟨0, _⟩ => rfl | ⟨1, _⟩ => rfl | ⟨2, _⟩ => rfl)
  rw [hl, hr, v0_at, v0_at]

/-- Two numbers below 1024 with the same 32-bit word are equal. -/
theorem eq_of_ofNat_eq {m n : Nat} (hm : m < 1024) (hn : n < 1024)
    (h : BitVec.ofNat 32 m = BitVec.ofNat 32 n) : m = n := by
  have e := congrArg BitVec.toNat h
  rw [BitVec.toNat_ofNat, BitVec.toNat_ofNat, Nat.mod_eq_of_lt (by omega), Nat.mod_eq_of_lt (by omega)] at e
  exact e

/-- The diagonal bit: row index plus zero compared with the column index, as 32-bit words, is set exactly on `s = t`. -/
theorem diag_at (b : Fin 32) (s t : Fin 1024) :
    val_main_call0_v0 (F := Ideal) (ix3 b s t) = if s = t then 1#1 else 0#1 := by
  rw [val_main_call0_v0_apply, val_main_v7_apply, val_main_v6_apply, val_main_v5_apply, val_main_v2_apply,
    val_main_v3_apply, val_main_v4_apply, val_main_c_apply]
  show IntOp.cmpi .eq (IntOp.addi (BitVec.ofNat 32 s.val) 0#32) (BitVec.ofNat 32 t.val) = _
  unfold IntOp.cmpi IntOp.addi
  rw [BitVec.add_zero]
  by_cases h : s = t
  · subst h
    rw [if_pos rfl, beq_self_eq_true]
    rfl
  · rw [if_neg h]
    have hne : BitVec.ofNat 32 s.val ≠ BitVec.ofNat 32 t.val := fun e =>
      h (Fin.ext (eq_of_ofNat_eq s.isLt t.isLt e))
    rw [beq_eq_false_iff_ne.mpr hne]
    rfl

/-- The key's mask value, broadcast over the queries. -/
theorem v11_at (b : Fin 32) (s t : Fin 1024) :
    val_main_v11 (F := Ideal) x1 (ix3 b s t) = maskVal (maskRow x1 b) t := by
  rw [val_main_v11_apply, val_main_v10_apply, val_main_v9_apply]
  unfold maskVal maskRow
  exact congrArg (fun z => FloatOps.sitofp (F := Ideal) .f32 (x1 z)) (funext fun a => Fin.ext (by
    match a with | ⟨0, _⟩ => rfl | ⟨1, _⟩ => rfl))

/-- The same broadcast, taken a second time by the program. -/
theorem v18_at (b : Fin 32) (s t : Fin 1024) :
    val_main_v18 (F := Ideal) x1 (ix3 b s t) = maskVal (maskRow x1 b) t := by
  rw [val_main_v18_apply, val_main_v10_apply, val_main_v9_apply]
  unfold maskVal maskRow
  exact congrArg (fun z => FloatOps.sitofp (F := Ideal) .f32 (x1 z)) (funext fun a => Fin.ext (by
    match a with | ⟨0, _⟩ => rfl | ⟨1, _⟩ => rfl))

/-- The score with its diagonal replaced by the zero word, times the key's mask value. -/
theorem v12_at (b : Fin 32) (s t : Fin 1024) :
    val_main_v12 (F := Ideal) x0 x1 (ix3 b s t) = masked (keys x0 b) (maskRow x1 b) s t := by
  rw [val_main_v12_apply, val_main_v8_apply, diag_at, val_main_call0_v1_apply, val_main_cst_apply, v1_at, v11_at]
  unfold masked
  by_cases h : s = t
  · rw [if_pos h, if_pos h, select_one]; rfl
  · rw [if_neg h, if_neg h, select_zero]; rfl

/-- The reduction over the key axis drops axis 2 of the (batch, query, key) array. -/
theorem red2 : S32x1024x1024.Reduces [2] S32x1024 := by decide

/-- The (batch, query) index with key `t` put back on the dropped axis is (b, s, t). -/
theorem lift_at (b : Fin 32) (s t : Fin 1024) : red2.lift (ix2 b s) t = ix3 b s t :=
  funext fun a => Fin.ext (by match a with | ⟨0, _⟩ => rfl | ⟨1, _⟩ => rfl | ⟨2, _⟩ => rfl)

/-- The maximum over the key axis, from the `-∞` word, is the row maximum. -/
theorem v13_at (b : Fin 32) (s : Fin 1024) :
    val_main_v13 (F := Ideal) x0 x1 (ix2 b s) = rowMax (keys x0 b) (maskRow x1 b) s := by
  unfold val_main_v13
  rw [Host.reduce_eq_fold_single FloatOps.maximumf _ _ reducesTo_S32x1024x1024_S32x1024_d2 red2 h_S_ (ix2 b s)]
  unfold rowMax
  show (Finset.univ : Finset (Fin 1024)).fold max negInfW
      (fun t => val_main_v12 (F := Ideal) x0 x1 (red2.lift (ix2 b s) t)) = _
  refine Finset.fold_congr fun (t : Fin 1024) _ => ?_
  exact (congrArg (val_main_v12 (F := Ideal) x0 x1) (lift_at b s t)).trans (v12_at x0 x1 b s t)

/-- The row maximum broadcast back over the keys. -/
theorem v15_at (b : Fin 32) (s t : Fin 1024) :
    val_main_v15 (F := Ideal) x0 x1 (ix3 b s t) = rowMax (keys x0 b) (maskRow x1 b) s := by
  rw [val_main_v15_apply, val_main_v14_apply]
  have hi : idx_main_v14 (idx_main_v15 (ix3 b s t)) = ix2 b s := funext fun a => Fin.ext (by
    match a with | ⟨0, _⟩ => rfl | ⟨1, _⟩ => rfl)
  rw [hi, v13_at]

/-- The unnormalised weight: the exponential of the masked score less the row maximum, times the key's mask value. -/
theorem v19_at (b : Fin 32) (s t : Fin 1024) :
    val_main_v19 (F := Ideal) x0 x1 (ix3 b s t) = weight (keys x0 b) (maskRow x1 b) s t := by
  rw [val_main_v19_apply, val_main_v17_apply, val_main_v16_apply, v12_at, v15_at, v18_at]
  rfl

/-- The sum of the weights over the keys; the sum starts from the zero word, which is `0`. -/
theorem v20_at (b : Fin 32) (s : Fin 1024) :
    val_main_v20 (F := Ideal) x0 x1 (ix2 b s) = ∑ t : Fin 1024, weight (keys x0 b) (maskRow x1 b) s t := by
  rw [val_main_v20_apply, val_main_cst_1_apply]
  show Ideal.ofBits .f32 0x00000000#32 + _ = _
  rw [Ideal.ofBits_zero_f32, zero_add]
  refine Finset.sum_congr rfl fun t _ => ?_
  have hi : idx_main_v20 (ix2 b s) t = ix3 b s t := funext fun a => Fin.ext (by
    match a with | ⟨0, _⟩ => rfl | ⟨1, _⟩ => rfl | ⟨2, _⟩ => rfl)
  rw [hi, v19_at]

/-- The normaliser: that sum plus the `ε` word, kept as a column. -/
theorem v23_at (b : Fin 32) (s : Fin 1024) (z : Fin 1) :
    val_main_v23 (F := Ideal) x0 x1 (ix3 b s z) = denom (keys x0 b) (maskRow x1 b) s := by
  rw [val_main_v23_apply, val_main_v21_apply, val_main_v22_apply, val_main_cst_2_apply]
  have hi : idx_main_v21 (ix3 b s z) = ix2 b s := funext fun a => Fin.ext (by
    match a with | ⟨0, _⟩ => rfl | ⟨1, _⟩ => rfl)
  rw [hi, v20_at]
  rfl

/-- The attention weight: the unnormalised weight over the row's normaliser. -/
theorem v25_at (b : Fin 32) (s t : Fin 1024) :
    val_main_v25 (F := Ideal) x0 x1 (ix3 b s t) = alpha (keys x0 b) (maskRow x1 b) s t := by
  rw [val_main_v25_apply, val_main_v24_apply, v19_at]
  have hi : idx_main_v24 (ix3 b s t) = ix3 b s (⟨0, Nat.one_pos⟩ : Fin 1) := funext fun a => Fin.ext (by
    match a with | ⟨0, _⟩ => rfl | ⟨1, _⟩ => rfl | ⟨2, _⟩ => rfl)
  rw [hi, v23_at]
  rfl

/-- The weights against the rows: the attended value at (b, s, d). -/
theorem v26_at (b : Fin 32) (s : Fin 1024) (d : Fin 512) :
    val_main_v26 (F := Ideal) x0 x1 (ix3 b s d) = out (keys x0 b) (maskRow x1 b) s d := by
  rw [val_main_v26_apply]
  unfold out
  refine Finset.sum_congr rfl fun k _ => ?_
  have hl : lidx_main_v26 (ix3 b s d) k = ix3 b s k := funext fun a => Fin.ext (by
    match a with | ⟨0, _⟩ => rfl | ⟨1, _⟩ => rfl | ⟨2, _⟩ => rfl)
  have hr : ridx_main_v26 (ix3 b s d) k = ix3 b k d := funext fun a => Fin.ext (by
    match a with | ⟨0, _⟩ => rfl | ⟨1, _⟩ => rfl | ⟨2, _⟩ => rfl)
  rw [hl, hr, v25_at, v0_at]

/-! ### The two results -/

/-- The reference's attention weights are `alphaArr`. -/
theorem ref_alpha : val_main_v25 (F := Ideal) x0 x1 = alphaArr x0 x1 := by
  funext j
  obtain ⟨b, s, t, rfl⟩ : ∃ (b : Fin 32) (s t : Fin 1024), j = ix3 b s t := ⟨j 0, j 1, j 2, eq_ix3 j⟩
  rw [v25_at]
  rfl

/-- The reference's attended values are `outArr`. -/
theorem ref_out : val_main_v27 (F := Ideal) x0 x1 = outArr x0 x1 := by
  funext j
  obtain ⟨s, b, d, rfl⟩ : ∃ (s : Fin 1024) (b : Fin 32) (d : Fin 512), j = ix3 s b d := ⟨j 0, j 1, j 2, eq_ix3 j⟩
  rw [val_main_v27_apply]
  have hi : idx_main_v27 (ix3 s b d) = ix3 b s d := funext fun a => Fin.ext (by
    match a with | ⟨0, _⟩ => rfl | ⟨1, _⟩ => rfl | ⟨2, _⟩ => rfl)
  rw [hi, v26_at]
  rfl

end Cert.ReferenceIdeal.RefValue

end
-- ==== Proof.Chains.lean ====
/-
  The eight batches of one grid point run the same operations; the printed body is cut into windows by
  statement count, so each batch's stored values are spelt over differently cut intermediate terms. Unfolded, each
  is the SAME function of the batch's three loads (query rows `q`, key rows `k`, mask words `m`) and of the
  diagonal bit `e`: the attention block `k0_pay12 e q k m` and the output block `k0_pay13 e q k m`.
-/
import proofs.«402815_j3109556322512_4_alg».proof.Proof.Gen.KernelIdeal.Skeleton

noncomputable section

namespace Cert.KernelIdeal.Chains

open Cert.KernelIdeal Cert.KernelIdeal.Gen Idealize.ShloMosaic

variable {F : FTy → Type} [FloatOps F]
variable (i : grid0.Coords) (e : IVec S256x1024 1) (q : Vec F S256x1x512 .f32) (k : Vec F S1024x1x512 .f32) (m : Vec F S1x1024 .i32)

/-! ## The attention block of each batch -/

theorem alpha0 : k0_pay8 i q k m = k0_pay12 (k0_pay4 i) q k m := rfl
theorem alpha2 : k0_pay16 e q k m = k0_pay12 e q k m := rfl
theorem alpha3 : k0_pay21 e (k0_pay18 q) k m = k0_pay12 e q k m := rfl
theorem alpha4 : k0_pay26 e (k0_pay23 q) (k0_pay24 k) m = k0_pay12 e q k m := rfl
theorem alpha5 : k0_pay31 (k0_pay29 e q k) m = k0_pay12 e q k m := rfl
theorem alpha6 : k0_pay37 (k0_pay34 e q k) (k0_pay35 m) = k0_pay12 e q k m := rfl
theorem alpha7 : k0_pay2 (k0_pay40 m) (k0_pay41 e q k m) (k0_pay42 e q k m) = k0_pay12 e q k m := rfl

/-! ## The output block of each batch -/

theorem out0 : k0_pay9 (k0_pay7 i q k m) = k0_pay13 (k0_pay4 i) q k m := rfl
theorem out2 : k0_pay17 e q k m = k0_pay13 e q k m := rfl
theorem out3 : k0_pay22 e (k0_pay18 q) k m = k0_pay13 e q k m := rfl
theorem out4 : k0_pay27 e (k0_pay23 q) (k0_pay24 k) m = k0_pay13 e q k m := rfl
theorem out5 : k0_pay32 (k0_pay28 k) (k0_pay29 e q k) m = k0_pay13 e q k m := rfl
theorem out6 : k0_pay38 (k0_pay33 k) (k0_pay34 e q k) (k0_pay35 m) = k0_pay13 e q k m := rfl
theorem out7 : k0_pay3 (k0_pay39 k) (k0_pay40 m) (k0_pay41 e q k m) (k0_pay42 e q k m) = k0_pay13 e q k m := rfl

end Cert.KernelIdeal.Chains

end
-- ==== Proof.BatchValue.lean ====
/-
  One batch of the kernel body at the ideal instance, index by index.

  Inside a grid point the body handles eight batches one after the other, each by the same operations on
  three loads: `q`, 256 query rows of the batch (rows `q0 … q0 + 255` of its 1024 rows); `k`, all 1024 rows
  (the keys, and the values); `mr`, the batch's row of mask words. With `eye` the bit that is set exactly
  on the global diagonal (query row `q0 + r` against key `t`), the stored attention block at (r, t) is
  `alpha` of the batch at (q0 + r, t) and the stored output block at (r, d) is `out` at (q0 + r, d).
-/
import proofs.«402815_j3109556322512_4_alg».proof.Proof.Gen.KernelIdeal.Skeleton
import proofs.«402815_j3109556322512_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BatchValue

open Cert.KernelIdeal Cert.KernelIdeal.Gen Idealize.ShloMosaic Idealize.ShloMosaic.ValueIdx Cert.MaskedAttn

/-- The rows of a `[1024, 1, 512]` load, and the words of a `[1, 1024]` load. -/
def rowsOf (k : Vec Ideal S1024x1x512 .f32) : Fin 1024 → Fin 512 → EReal := fun s d => k (ix3 s 0 d)
def wordsOf (mr : Vec Ideal S1x1024 .i32) : Fin 1024 → BitVec 32 := fun t => mr (ix2 0 t)

/-! ## Layout operations read at coordinates: a unit axis in the middle or at the end -/

section Layout
variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a `[a, b]` array over the row `i` of its lane reduction, with lane coordinate `t`, is `(i, t)`. -/
theorem lift_lane_ix2 {a b : ℕ} (h : (⟨2, ![a, b]⟩ : Shape).Reduces [1] ⟨1, ![a]⟩) (i : Fin a) (t : Fin b) :
    h.lift (ix1 i) t = ix2 i t := by
  funext c
  apply Fin.ext
  match c with
  | ⟨0, _⟩ => rfl
  | ⟨1, _⟩ => rfl

end Layout

/-! ## The block's stages, named

The generated payload for the attention block is one term; here are its stages, each a definition over the three
loads and the diagonal bit, in the payload's order. The payload is their composition, by unfolding. -/

/-- The mask words as reals, the one row broadcast over the 256 query rows. -/
def maskB (mr : Vec Ideal S1x1024 .i32) : FVec Ideal S256x1024 .f32 :=
  broadcastTo S256x1024
    (shapeCast S1x1024 (sitofp .f32 (shapeCast S1024 mr shapeCasts_S1x1024_S1024) : FVec Ideal S1024 .f32) shapeCasts_S1024_S1x1024)
    broadcasts_S1x1024_S256x1024

/-- The query rows against the key rows. -/
def scoreB (q : Vec Ideal S256x1x512 .f32) (k : Vec Ideal S1024x1x512 .f32) : FVec Ideal S256x1024 .f32 :=
  matmul dot_S256x512_S1024x512_S256x1024_1_1_0_0_n_n (some .fp32)
    (shapeCast S256x512 q shapeCasts_S256x1x512_S256x512 : FVec Ideal S256x512 .f32) (k0_pay10 (F := Ideal) k) (constant (F := Ideal) S256x1024 .f32 0x00000000#32)

/-- The scores with the diagonal zeroed, times the mask. -/
def maskedB (eye : IVec S256x1024 1) (q : Vec Ideal S256x1x512 .f32) (k : Vec Ideal S1024x1x512 .f32)
    (mr : Vec Ideal S1x1024 .i32) : FVec Ideal S256x1024 .f32 :=
  mulf (select eye (broadcast S256x1024 (Scalar.ofBits (F := Ideal) .f32 0x00000000#32)) (scoreB q k)) (maskB mr)

/-- The row maxima. -/
def rowMaxB (eye : IVec S256x1024 1) (q : Vec Ideal S256x1x512 .f32) (k : Vec Ideal S1024x1x512 .f32)
    (mr : Vec Ideal S1x1024 .i32) : FVec Ideal S256 .f32 :=
  multiReduction (F := Ideal) .maximumf [1] S256 (maskedB eye q k mr) 0xFF800000#32 reduces_S256x1024_S256 (.inl rfl) rfl

/-- The unnormalised weights. -/
def weightB (eye : IVec S256x1024 1) (q : Vec Ideal S256x1x512 .f32) (k : Vec Ideal S1024x1x512 .f32)
    (mr : Vec Ideal S1x1024 .i32) : FVec Ideal S256x1024 .f32 :=
  mulf (exp (subf (maskedB eye q k mr)
      (broadcastTo S256x1024 (shapeCast S256x1 (rowMaxB eye q k mr) shapeCasts_S256_S256x1) broadcasts_S256x1_S256x1024)))
    (maskB mr)

/-- The normalisers, as a column. -/
def denomB (eye : IVec S256x1024 1) (q : Vec Ideal S256x1x512 .f32) (k : Vec Ideal S1024x1x512 .f32)
    (mr : Vec Ideal S1x1024 .i32) : FVec Ideal S256x1 .f32 :=
  addf (shapeCast S256x1
      (multiReduction (F := Ideal) .add [1] S256 (weightB eye q k mr) 0x00000000#32 reduces_S256x1024_S256 (.inl rfl) rfl)
      shapeCasts_S256_S256x1)
    (broadcast S256x1 (Scalar.ofBits (F := Ideal) .f32 0x358637BD#32))

/-- The attention weights. -/
def alphaB (eye : IVec S256x1024 1) (q : Vec Ideal S256x1x512 .f32) (k : Vec Ideal S1024x1x512 .f32)
    (mr : Vec Ideal S1x1024 .i32) : FVec Ideal S256x1024 .f32 :=
  divf (weightB eye q k mr) (broadcastTo S256x1024 (denomB eye q k mr) broadcasts_S256x1_S256x1024)

/-- The generated payload is the composition of the stages. -/
theorem pay11_eq (eye : IVec S256x1024 1) (q : Vec Ideal S256x1x512 .f32) (k : Vec Ideal S1024x1x512 .f32)
    (mr : Vec Ideal S1x1024 .i32) : k0_pay11 (F := Ideal) eye q k mr = alphaB eye q k mr := rfl

/-! ## Each stage read at coordinates -/

/-- The mask block at (r, t) is the mask value of key `t`, whatever the row. -/
theorem maskB_apply (mr : Vec Ideal S1x1024 .i32) (r : Fin 256) (t : Fin 1024) :
    maskB mr (ix2 r t) = maskVal (wordsOf mr) t := by
  unfold maskB
  refine (broadcastTo_1b_ab_apply _ _ r t).trans ?_
  refine (shapeCast_a_1a_apply _ _ (0 : Fin 1) t).trans ?_
  show FloatOps.sitofp (F := Ideal) .f32 (shapeCast S1024 mr shapeCasts_S1x1024_S1024 (ix1 t)) = _
  exact congrArg (FloatOps.sitofp (F := Ideal) .f32) (shapeCast_1a_a_apply _ _ t)

/-! The first product contracts axis 1 of both operands: at result (r, t) and contraction coordinate `c` it reads
the left operand at (r, c) and the right at (t, c). One lemma per operand axis. -/

theorem lhs_qk_0 (i : S256x1024.Idx) (c : dot_S256x512_S1024x512_S256x1024_1_1_0_0_n_n.contr.Idx) :
    (dot_S256x512_S1024x512_S256x1024_1_1_0_0_n_n.lhsIdx i c 0).val = (i 0).val := by
  unfold DotDims.lhsIdx
  rw [dif_neg (show ¬(0 : Fin S256x512.rank) ∈ dot_S256x512_S1024x512_S256x1024_1_1_0_0_n_n.lhsBatch by decide), dif_pos (show (0 : Fin S256x512.rank) ∈ dot_S256x512_S1024x512_S256x1024_1_1_0_0_n_n.lhsNonContracting by decide)]
  rfl
theorem lhs_qk_1 (i : S256x1024.Idx) (c : dot_S256x512_S1024x512_S256x1024_1_1_0_0_n_n.contr.Idx) :
    (dot_S256x512_S1024x512_S256x1024_1_1_0_0_n_n.lhsIdx i c 1).val = (c ⟨0, by decide⟩).val :=
  dot_S256x512_S1024x512_S256x1024_1_1_0_0_n_n.lhsIdx_val_of_single rfl i c
theorem rhs_qk_0 (i : S256x1024.Idx) (c : dot_S256x512_S1024x512_S256x1024_1_1_0_0_n_n.contr.Idx) :
    (dot_S256x512_S1024x512_S256x1024_1_1_0_0_n_n.rhsIdx i c 0).val = (i 1).val := by
  unfold DotDims.rhsIdx
  rw [dif_neg (show ¬(0 : Fin S1024x512.rank) ∈ dot_S256x512_S1024x512_S256x1024_1_1_0_0_n_n.rhsBatch by decide), dif_pos (show (0 : Fin S1024x512.rank) ∈ dot_S256x512_S1024x512_S256x1024_1_1_0_0_n_n.rhsNonContracting by decide)]
  rfl
theorem rhs_qk_1 (i : S256x1024.Idx) (c : dot_S256x512_S1024x512_S256x1024_1_1_0_0_n_n.contr.Idx) :
    (dot_S256x512_S1024x512_S256x1024_1_1_0_0_n_n.rhsIdx i c 1).val = (c ⟨0, by decide⟩).val :=
  dot_S256x512_S1024x512_S256x1024_1_1_0_0_n_n.rhsIdx_val_of_single rfl i c

/-- The score block at (r, t): query row `q0 + r` of the batch against key row `t`. -/
theorem scoreB_apply (q : Vec Ideal S256x1x512 .f32) (k : Vec Ideal S1024x1x512 .f32) (q0 : Nat) (hq0 : q0 + 256 ≤ 1024)
    (hq : ∀ (r : Fin 256) (d : Fin 512), q (ix3 r 0 d) = k (ix3 (⟨q0 + r.val, by omega⟩ : Fin 1024) 0 d))
    (r : Fin 256) (t : Fin 1024) :
    scoreB q k (ix2 r t) = score (rowsOf k) (⟨q0 + r.val, by omega⟩ : Fin 1024) t := by
  unfold scoreB score
  refine (Ideal.matmul_constant_zero_apply _ _ _ _ _).trans ?_
  rw [← Equiv.sum_comp (contrEquiv1 dot_S256x512_S1024x512_S256x1024_1_1_0_0_n_n 512 rfl rfl).symm]
  refine Finset.sum_congr rfl fun c _ => ?_
  have hc := contrEquiv1_symm_val dot_S256x512_S1024x512_S256x1024_1_1_0_0_n_n 512 rfl rfl c
  have el : dot_S256x512_S1024x512_S256x1024_1_1_0_0_n_n.lhsIdx (ix2 r t) ((contrEquiv1 dot_S256x512_S1024x512_S256x1024_1_1_0_0_n_n 512 rfl rfl).symm c) = ix2 r c := funext fun a => Fin.ext (by
    match a with
    | ⟨0, _⟩ => exact lhs_qk_0 _ _
    | ⟨1, _⟩ => exact (lhs_qk_1 _ _).trans hc)
  have er : dot_S256x512_S1024x512_S256x1024_1_1_0_0_n_n.rhsIdx (ix2 r t) ((contrEquiv1 dot_S256x512_S1024x512_S256x1024_1_1_0_0_n_n 512 rfl rfl).symm c) = ix2 t c := funext fun a => Fin.ext (by
    match a with
    | ⟨0, _⟩ => exact rhs_qk_0 _ _
    | ⟨1, _⟩ => exact (rhs_qk_1 _ _).trans hc)
  rw [el, er]
  have e1 : (shapeCast S256x512 q shapeCasts_S256x1x512_S256x512 : FVec Ideal S256x512 .f32) (ix2 r c)
      = rowsOf k (⟨q0 + r.val, by omega⟩ : Fin 1024) c :=
    (shapeCast_a1b_ab_apply _ _ r c).trans (hq r c)
  have e2 : k0_pay10 (F := Ideal) k (ix2 t c) = rowsOf k t c := by
    unfold k0_pay10
    exact shapeCast_a1b_ab_apply _ _ t c
  rw [e1, e2]

/-- The masked score at (r, t): the diagonal bit is set exactly where query row `q0 + r` is key `t`. -/
theorem maskedB_apply (eye : IVec S256x1024 1) (q : Vec Ideal S256x1x512 .f32) (k : Vec Ideal S1024x1x512 .f32)
    (mr : Vec Ideal S1x1024 .i32) (q0 : Nat) (hq0 : q0 + 256 ≤ 1024)
    (heye : ∀ (r : Fin 256) (t : Fin 1024), eye (ix2 r t) = 1#1 ↔ q0 + r.val = t.val)
    (hq : ∀ (r : Fin 256) (d : Fin 512), q (ix3 r 0 d) = k (ix3 (⟨q0 + r.val, by omega⟩ : Fin 1024) 0 d))
    (r : Fin 256) (t : Fin 1024) :
    maskedB eye q k mr (ix2 r t) = masked (rowsOf k) (wordsOf mr) (⟨q0 + r.val, by omega⟩ : Fin 1024) t := by
  unfold maskedB masked
  show Scalar.select (eye (ix2 r t)) (Ideal.ofBits .f32 0x00000000#32) (scoreB q k (ix2 r t)) * maskB mr (ix2 r t) = _
  rw [scoreB_apply q k q0 hq0 hq r t, maskB_apply mr r t]
  by_cases h : eye (ix2 r t) = 1#1
  · have hs : (⟨q0 + r.val, by omega⟩ : Fin 1024) = t := Fin.ext ((heye r t).mp h)
    rw [h, select_one, if_pos hs]
  · have hs : ¬ (⟨q0 + r.val, by omega⟩ : Fin 1024) = t := fun e => h ((heye r t).mpr (congrArg Fin.val e))
    rw [eq_zero_of_ne_one h, select_zero, if_neg hs]

/-- The row maximum at r: the fold of `max` over the keys, from the `-∞` word. -/
theorem rowMaxB_apply (eye : IVec S256x1024 1) (q : Vec Ideal S256x1x512 .f32) (k : Vec Ideal S1024x1x512 .f32)
    (mr : Vec Ideal S1x1024 .i32) (q0 : Nat) (hq0 : q0 + 256 ≤ 1024)
    (heye : ∀ (r : Fin 256) (t : Fin 1024), eye (ix2 r t) = 1#1 ↔ q0 + r.val = t.val)
    (hq : ∀ (r : Fin 256) (d : Fin 512), q (ix3 r 0 d) = k (ix3 (⟨q0 + r.val, by omega⟩ : Fin 1024) 0 d))
    (r : Fin 256) :
    rowMaxB eye q k mr (ix1 r) = rowMax (rowsOf k) (wordsOf mr) (⟨q0 + r.val, by omega⟩ : Fin 1024) := by
  unfold rowMaxB rowMax
  refine (Ideal.multiReduction_maximumf_single (maskedB eye q k mr) _ reduces_S256x1024_S256 _ _ (ix1 r)).trans ?_
  exact Finset.fold_congr fun t _ =>
    (congrArg (maskedB eye q k mr) (lift_lane_ix2 reduces_S256x1024_S256 r t)).trans (maskedB_apply eye q k mr q0 hq0 heye hq r t)

/-- The weight at (r, t): the row maximum is read through the column cast and its broadcast over the keys. -/
theorem weightB_apply (eye : IVec S256x1024 1) (q : Vec Ideal S256x1x512 .f32) (k : Vec Ideal S1024x1x512 .f32)
    (mr : Vec Ideal S1x1024 .i32) (q0 : Nat) (hq0 : q0 + 256 ≤ 1024)
    (heye : ∀ (r : Fin 256) (t : Fin 1024), eye (ix2 r t) = 1#1 ↔ q0 + r.val = t.val)
    (hq : ∀ (r : Fin 256) (d : Fin 512), q (ix3 r 0 d) = k (ix3 (⟨q0 + r.val, by omega⟩ : Fin 1024) 0 d))
    (r : Fin 256) (t : Fin 1024) :
    weightB eye q k mr (ix2 r t) = weight (rowsOf k) (wordsOf mr) (⟨q0 + r.val, by omega⟩ : Fin 1024) t := by
  unfold weightB weight
  show Ideal.exp (maskedB eye q k mr (ix2 r t)
      - broadcastTo S256x1024 (shapeCast S256x1 (rowMaxB eye q k mr) shapeCasts_S256_S256x1) broadcasts_S256x1_S256x1024 (ix2 r t))
    * maskB mr (ix2 r t) = _
  have e1 := maskedB_apply eye q k mr q0 hq0 heye hq r t
  have e2 : broadcastTo S256x1024 (shapeCast S256x1 (rowMaxB eye q k mr) shapeCasts_S256_S256x1) broadcasts_S256x1_S256x1024 (ix2 r t)
      = rowMax (rowsOf k) (wordsOf mr) (⟨q0 + r.val, by omega⟩ : Fin 1024) :=
    ((broadcastTo_a1_ab_apply _ _ r t).trans (shapeCast_a_a1_apply _ _ r (0 : Fin 1))).trans (rowMaxB_apply eye q k mr q0 hq0 heye hq r)
  have e3 := maskB_apply mr r t
  rw [e1, e2, e3]

/-- The normaliser of row r: the lane sum of the weights, plus the `ε` word. -/
theorem denomB_apply (eye : IVec S256x1024 1) (q : Vec Ideal S256x1x512 .f32) (k : Vec Ideal S1024x1x512 .f32)
    (mr : Vec Ideal S1x1024 .i32) (q0 : Nat) (hq0 : q0 + 256 ≤ 1024)
    (heye : ∀ (r : Fin 256) (t : Fin 1024), eye (ix2 r t) = 1#1 ↔ q0 + r.val = t.val)
    (hq : ∀ (r : Fin 256) (d : Fin 512), q (ix3 r 0 d) = k (ix3 (⟨q0 + r.val, by omega⟩ : Fin 1024) 0 d))
    (r : Fin 256) :
    denomB eye q k mr (ix2 r (0 : Fin 1)) = denom (rowsOf k) (wordsOf mr) (⟨q0 + r.val, by omega⟩ : Fin 1024) := by
  unfold denomB denom
  show shapeCast S256x1
        (multiReduction (F := Ideal) .add [1] S256 (weightB eye q k mr) 0x00000000#32 reduces_S256x1024_S256 (.inl rfl) rfl)
        shapeCasts_S256_S256x1 (ix2 r (0 : Fin 1))
      + Ideal.ofBits .f32 0x358637BD#32 = _
  refine congrArg (fun x => x + epsW) ?_
  refine (shapeCast_a_a1_apply _ _ r (0 : Fin 1)).trans ?_
  refine (Ideal.multiReduction_add_single (weightB eye q k mr) _ reduces_S256x1024_S256 _ _ (ix1 r)).trans ?_
  exact Finset.sum_congr rfl fun t _ =>
    (congrArg (weightB eye q k mr) (lift_lane_ix2 reduces_S256x1024_S256 r t)).trans (weightB_apply eye q k mr q0 hq0 heye hq r t)

/-- The attention weight at (r, t). -/
theorem alphaB_apply (eye : IVec S256x1024 1) (q : Vec Ideal S256x1x512 .f32) (k : Vec Ideal S1024x1x512 .f32)
    (mr : Vec Ideal S1x1024 .i32) (q0 : Nat) (hq0 : q0 + 256 ≤ 1024)
    (heye : ∀ (r : Fin 256) (t : Fin 1024), eye (ix2 r t) = 1#1 ↔ q0 + r.val = t.val)
    (hq : ∀ (r : Fin 256) (d : Fin 512), q (ix3 r 0 d) = k (ix3 (⟨q0 + r.val, by omega⟩ : Fin 1024) 0 d))
    (r : Fin 256) (t : Fin 1024) :
    alphaB eye q k mr (ix2 r t) = alpha (rowsOf k) (wordsOf mr) (⟨q0 + r.val, by omega⟩ : Fin 1024) t := by
  unfold alphaB alpha
  show Ideal.div (weightB eye q k mr (ix2 r t))
      (broadcastTo S256x1024 (denomB eye q k mr) broadcasts_S256x1_S256x1024 (ix2 r t)) = _
  have e1 := weightB_apply eye q k mr q0 hq0 heye hq r t
  have e2 : broadcastTo S256x1024 (denomB eye q k mr) broadcasts_S256x1_S256x1024 (ix2 r t)
      = denom (rowsOf k) (wordsOf mr) (⟨q0 + r.val, by omega⟩ : Fin 1024) :=
    (broadcastTo_a1_ab_apply _ _ r t).trans (denomB_apply eye q k mr q0 hq0 heye hq r)
  rw [e1, e2]

/-! The second product contracts axis 1 of the weights with axis 0 of the rows: at result (r, d) and contraction
coordinate `c` it reads the weights at (r, c) and the rows at (c, d). -/

theorem lhs_av_0 (i : S256x512.Idx) (c : dot_S256x1024_S1024x512_S256x512_1_0_0_1_n_n.contr.Idx) :
    (dot_S256x1024_S1024x512_S256x512_1_0_0_1_n_n.lhsIdx i c 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem lhs_av_1 (i : S256x512.Idx) (c : dot_S256x1024_S1024x512_S256x512_1_0_0_1_n_n.contr.Idx) :
    (dot_S256x1024_S1024x512_S256x512_1_0_0_1_n_n.lhsIdx i c 1).val = (c ⟨0, by decide⟩).val :=
  dot_S256x1024_S1024x512_S256x512_1_0_0_1_n_n.lhsIdx_val_of_single rfl i c
theorem rhs_av_0 (i : S256x512.Idx) (c : dot_S256x1024_S1024x512_S256x512_1_0_0_1_n_n.contr.Idx) :
    (dot_S256x1024_S1024x512_S256x512_1_0_0_1_n_n.rhsIdx i c 0).val = (c ⟨0, by decide⟩).val :=
  dot_S256x1024_S1024x512_S256x512_1_0_0_1_n_n.rhsIdx_val_of_single rfl i c
theorem rhs_av_1 (i : S256x512.Idx) (c : dot_S256x1024_S1024x512_S256x512_1_0_0_1_n_n.contr.Idx) :
    (dot_S256x1024_S1024x512_S256x512_1_0_0_1_n_n.rhsIdx i c 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl

section
variable (eye : IVec S256x1024 1) (q : Vec Ideal S256x1x512 .f32) (k : Vec Ideal S1024x1x512 .f32)
  (mr : Vec Ideal S1x1024 .i32) (q0 : Nat) (hq0 : q0 + 256 ≤ 1024)
  (heye : ∀ (r : Fin 256) (t : Fin 1024), eye (ix2 r t) = 1#1 ↔ q0 + r.val = t.val)
  (hq : ∀ (r : Fin 256) (d : Fin 512), q (ix3 r 0 d) = k (ix3 (⟨q0 + r.val, by omega⟩ : Fin 1024) 0 d))

include hq0 heye hq

/-- The attention block one batch stores, at query row `r` of the tile and key `t`. -/
theorem alpha_batch (r : Fin 256) (t : Fin 1024) :
    k0_pay12 (F := Ideal) eye q k mr (ix3 0 r t)
      = alpha (rowsOf k) (wordsOf mr) (⟨q0 + r.val, by omega⟩ : Fin 1024) t := by
  unfold k0_pay12
  refine (shapeCast_ab_1ab_apply _ _ (0 : Fin 1) r t).trans ?_
  rw [pay11_eq]
  exact alphaB_apply eye q k mr q0 hq0 heye hq r t

/-- The output block one batch stores, at query row `r` of the tile and coordinate `d`. -/
theorem out_batch (r : Fin 256) (d : Fin 512) :
    k0_pay13 (F := Ideal) eye q k mr (ix3 r 0 d)
      = out (rowsOf k) (wordsOf mr) (⟨q0 + r.val, by omega⟩ : Fin 1024) d := by
  unfold k0_pay13 out
  refine (shapeCast_ab_a1b_apply _ _ r (0 : Fin 1) d).trans ?_
  refine (Ideal.matmul_constant_zero_apply _ _ _ _ _).trans ?_
  rw [← Equiv.sum_comp (contrEquiv1 dot_S256x1024_S1024x512_S256x512_1_0_0_1_n_n 1024 rfl rfl).symm]
  refine Finset.sum_congr rfl fun c _ => ?_
  have hc := contrEquiv1_symm_val dot_S256x1024_S1024x512_S256x512_1_0_0_1_n_n 1024 rfl rfl c
  have el : dot_S256x1024_S1024x512_S256x512_1_0_0_1_n_n.lhsIdx (ix2 r d) ((contrEquiv1 dot_S256x1024_S1024x512_S256x512_1_0_0_1_n_n 1024 rfl rfl).symm c) = ix2 r c := funext fun a => Fin.ext (by
    match a with
    | ⟨0, _⟩ => exact lhs_av_0 _ _
    | ⟨1, _⟩ => exact (lhs_av_1 _ _).trans hc)
  have er : dot_S256x1024_S1024x512_S256x512_1_0_0_1_n_n.rhsIdx (ix2 r d) ((contrEquiv1 dot_S256x1024_S1024x512_S256x512_1_0_0_1_n_n 1024 rfl rfl).symm c) = ix2 c d := funext fun a => Fin.ext (by
    match a with
    | ⟨0, _⟩ => exact (rhs_av_0 _ _).trans hc
    | ⟨1, _⟩ => exact rhs_av_1 _ _)
  rw [el, er]
  have e1 : k0_pay11 (F := Ideal) eye q k mr (ix2 r c) = alpha (rowsOf k) (wordsOf mr) (⟨q0 + r.val, by omega⟩ : Fin 1024) c :=
    (congrFun (pay11_eq eye q k mr) (ix2 r c)).trans (alphaB_apply eye q k mr q0 hq0 heye hq r c)
  have e2 : k0_pay10 (F := Ideal) k (ix2 c d) = rowsOf k c d := by
    unfold k0_pay10
    exact shapeCast_a1b_ab_apply _ _ c d
  rw [e1, e2]
end

end Cert.KernelIdeal.BatchValue

end
-- ==== Proof.BlockValue.lean ====
/-
  What one grid point leaves in its two output blocks, at the ideal instance.

  Grid point (bi, qi) stages rows of eight batches: `x0`, the `[1024, 8, 512]` block of the input (all rows of batches
  8·bi … 8·bi + 7), and `x1`, the `[8, 1024]` block of mask words. For each local batch `bb` the body loads the 256 query
  rows `256·qi … 256·qi + 255` and all 1024 key rows of that batch and its row of mask words, and stores one
  `[1, 256, 1024]` piece of the attention block and one `[256, 1, 512]` piece of the output block. The diagonal bit
  the body computes is set exactly where the global query row equals the key. So the attention block at (bb, r, t) is
  `alpha` of batch `bb` of the staged blocks at (256·qi + r, t), and the output block at (r, bb, d) is `out` there:
  each of the eight pieces agrees with that one function of the block index, and the pieces cover the block.
-/
import proofs.«402815_j3109556322512_4_alg».proof.Proof.Gen.KernelIdeal.Frame
import proofs.«402815_j3109556322512_4_alg».proof.Proof.Chains
import proofs.«402815_j3109556322512_4_alg».proof.Proof.BatchValue
import Idealize.ShloMosaic.Lib.Pipeline.Value

set_option maxRecDepth 16384

noncomputable section

namespace Cert.KernelIdeal.BlockValue

open Cert.KernelIdeal Cert.KernelIdeal.Gen Idealize.ShloMosaic Idealize.ShloMosaic.TcCoe Idealize.ShloMosaic.Tactic
open Idealize.ShloMosaic.ValueIdx Cert.MaskedAttn Cert.KernelIdeal.BatchValue Cert.KernelIdeal.Chains

/-- Row `r` of query tile `a` is global row `256·a + r`. -/
def qrow (a : Fin 4) (r : Fin 256) : Fin 1024 := ⟨a.val * 256 + r.val, by omega⟩

/-- The attention block of a grid point: batch `y 0` of the staged blocks, query row `y 1` of the tile, key `y 2`. -/
def blkAlpha (i : grid0.Coords) (x0 : Vec Ideal S1024x8x512 .f32) (x1 : Vec Ideal S8x1024 .i32) : S8x256x1024.Idx → EReal :=
  fun y => alpha (fun s d => x0 (ix3 s (y 0) d)) (fun t => x1 (ix2 (y 0) t)) (qrow (i 1) (y 1)) (y 2)

/-- The output block of a grid point: query row `y 0` of the tile, batch `y 1`, coordinate `y 2`. -/
def blkOut (i : grid0.Coords) (x0 : Vec Ideal S1024x8x512 .f32) (x1 : Vec Ideal S8x1024 .i32) : S256x8x512.Idx → EReal :=
  fun y => out (fun s d => x0 (ix3 s (y 1) d)) (fun t => x1 (ix2 (y 1) t)) (qrow (i 1) (y 0)) (y 2)

/-! ## The tile's first row and the diagonal bit -/

/-- The row offset the body computes for query tile `a` is `256·a`. -/
theorem tile_off (a : Fin 4) : (Scalar.indexCast (Scalar.muli (BitVec.ofNat 32 a.val) 256#32)).toNat = a.val * 256 := by
  fin_cases a <;> rfl

theorem cmpi_eq_one_iff (a b : BitVec 32) : IntOp.cmpi .eq a b = 1#1 ↔ a = b := by
  show BitVec.ofBool (a == b) = 1#1 ↔ a = b
  by_cases h : a = b
  · subst h; simp
  · have hb : (a == b) = false := beq_eq_false_iff_ne.mpr h
    rw [hb]
    exact ⟨fun h' => absurd h' (by decide), fun h' => absurd h' h⟩

/-- Local row `r` plus the tile's first row, compared as 32-bit words with key `t`: equal exactly when the numbers are. -/
theorem word_eq_iff (a : Fin 4) (r : Fin 256) (t : Fin 1024) :
    IntOp.addi (BitVec.ofNat 32 r.val) (Scalar.muli (BitVec.ofNat 32 a.val) 256#32) = BitVec.ofNat 32 t.val
      ↔ a.val * 256 + r.val = t.val := by
  unfold IntOp.addi Scalar.muli IntOp.muli
  rw [← BitVec.toNat_inj]
  simp only [BitVec.toNat_add, BitVec.toNat_mul, BitVec.toNat_ofNat, Nat.reducePow]
  have := a.isLt; have := r.isLt; have := t.isLt
  omega

/-- The diagonal bit at (r, t) of the tile is set exactly when global row `256·qi + r` is key `t`. -/
theorem eye_iff (i : grid0.Coords) (r : Fin 256) (t : Fin 1024) :
    k0_pay4 i (ix2 r t) = 1#1 ↔ (i 1).val * 256 + r.val = t.val := by
  have h0 : iota .tc S256x1024 32 [0] iota_S256x1024_d0_w32 (ix2 r t) = BitVec.ofNat 32 r.val :=
    iota_single_apply .tc S256x1024 32 0 _ (ix2 r t)
  have h1 : iota .tc S256x1024 32 [1] iota_S256x1024_d1_w32 (ix2 r t) = BitVec.ofNat 32 t.val :=
    iota_single_apply .tc S256x1024 32 1 _ (ix2 r t)
  show IntOp.cmpi .eq (IntOp.addi (iota .tc S256x1024 32 [0] iota_S256x1024_d0_w32 (ix2 r t))
      (Scalar.muli (BitVec.ofNat 32 (i 1).val) 256#32)) (iota .tc S256x1024 32 [1] iota_S256x1024_d1_w32 (ix2 r t)) = 1#1 ↔ _
  rw [h0, h1, cmpi_eq_one_iff]
  exact word_eq_iff (i 1) r t

/-! ## One batch's loads are its rows of the staged blocks -/

section Piece

variable (i : grid0.Coords) (x0 : Vec Ideal S1024x8x512 .f32) (x1 : Vec Ideal S8x1024 .i32) (bb : Fin 8)
  (offq : Fin 3 → Nat) (inbq : ∀ a, offq a + S256x1x512.size a ≤ S1024x8x512.size a)
  (offk : Fin 3 → Nat) (inbk : ∀ a, offk a + S1024x1x512.size a ≤ S1024x8x512.size a)
  (offm : Fin 2 → Nat) (inbm : ∀ a, offm a + S1x1024.size a ≤ S8x1024.size a)

/-- The key load of batch `bb`: all rows of that batch. -/
theorem rows_ld (hk : offk = ![0, bb.val, 0]) :
    rowsOf (View.ld x0 (Rect.unit (s := S1024x8x512) offk S1024x1x512.size inbk)) = fun s d => x0 (ix3 s bb d) := by
  subst hk
  funext s d
  show x0 ((Rect.unit (s := S1024x8x512) ![0, bb.val, 0] S1024x1x512.size inbk).idx (ix3 s 0 d)) = x0 (ix3 s bb d)
  refine congrArg x0 (funext fun a => Fin.ext ?_)
  match a with
  | ⟨0, _⟩ => show 0 + 1 * s.val = s.val; omega
  | ⟨1, _⟩ => show bb.val + 1 * 0 = bb.val; omega
  | ⟨2, _⟩ => show 0 + 1 * d.val = d.val; omega

/-- The mask load of batch `bb`: that batch's row of words. -/
theorem words_ld (hm : offm = ![bb.val, 0]) :
    wordsOf (View.ld x1 (Rect.unit (s := S8x1024) offm S1x1024.size inbm)) = fun t => x1 (ix2 bb t) := by
  subst hm
  funext t
  show x1 ((Rect.unit (s := S8x1024) ![bb.val, 0] S1x1024.size inbm).idx (ix2 0 t)) = x1 (ix2 bb t)
  refine congrArg x1 (funext fun a => Fin.ext ?_)
  match a with
  | ⟨0, _⟩ => show bb.val + 1 * 0 = bb.val; omega
  | ⟨1, _⟩ => show 0 + 1 * t.val = t.val; omega

/-- The query load of batch `bb`: rows `256·qi + r` of the key load. -/
theorem q_ld (hq : offq = ![(i 1).val * 256, bb.val, 0]) (hk : offk = ![0, bb.val, 0]) (h4 : (i 1).val * 256 + 256 ≤ 1024)
    (r : Fin 256) (d : Fin 512) :
    View.ld x0 (Rect.unit (s := S1024x8x512) offq S256x1x512.size inbq) (ix3 r 0 d)
      = View.ld x0 (Rect.unit (s := S1024x8x512) offk S1024x1x512.size inbk) (ix3 (⟨(i 1).val * 256 + r.val, by omega⟩ : Fin 1024) 0 d) := by
  subst hq; subst hk
  show x0 ((Rect.unit (s := S1024x8x512) ![(i 1).val * 256, bb.val, 0] S256x1x512.size inbq).idx (ix3 r 0 d))
    = x0 ((Rect.unit (s := S1024x8x512) ![0, bb.val, 0] S1024x1x512.size inbk).idx (ix3 (⟨(i 1).val * 256 + r.val, by omega⟩ : Fin 1024) 0 d))
  refine congrArg x0 (funext fun a => Fin.ext ?_)
  match a with
  | ⟨0, _⟩ => show (i 1).val * 256 + 1 * r.val = 0 + 1 * ((i 1).val * 256 + r.val); omega
  | ⟨1, _⟩ => rfl
  | ⟨2, _⟩ => rfl

/-- The tile's rows lie inside the 1024 rows. -/
theorem tile_le (i : grid0.Coords) : (i 1).val * 256 + 256 ≤ 1024 := by
  have h : (i 1).val < 4 := (i 1).isLt
  omega

/-- One stored piece of the attention block is the block's function at the piece's indices. -/
theorem piece_alpha (hq : offq = ![(i 1).val * 256, bb.val, 0]) (hk : offk = ![0, bb.val, 0]) (hm : offm = ![bb.val, 0])
    (offo : Fin 3 → Nat) (inbo : ∀ a, offo a + S1x256x1024.size a ≤ S8x256x1024.size a) (ho : offo = ![bb.val, 0, 0])
    (x : S1x256x1024.Idx) :
    k0_pay12 (F := Ideal) (k0_pay4 i) (View.ld x0 (Rect.unit (s := S1024x8x512) offq S256x1x512.size inbq))
        (View.ld x0 (Rect.unit (s := S1024x8x512) offk S1024x1x512.size inbk))
        (View.ld x1 (Rect.unit (s := S8x1024) offm S1x1024.size inbm)) x
      = blkAlpha i x0 x1 ((Rect.unit (s := S8x256x1024) offo S1x256x1024.size inbo).emb x) := by
  obtain ⟨z, r, t, rfl⟩ : ∃ (z : Fin 1) (r : Fin 256) (t : Fin 1024), x = ix3 z r t := ⟨x 0, x 1, x 2, eq_ix3 x⟩
  obtain rfl : z = 0 := Subsingleton.elim _ _
  refine (alpha_batch (k0_pay4 i) _ _ _ ((i 1).val * 256) (tile_le i) (eye_iff i)
    (q_ld i x0 bb offq inbq offk inbk hq hk (tile_le i)) r t).trans ?_
  rw [rows_ld x0 bb offk inbk hk, words_ld x1 bb offm inbm hm]
  subst ho
  unfold blkAlpha
  have e0 : (Rect.unit (s := S8x256x1024) ![bb.val, 0, 0] S1x256x1024.size inbo).emb (ix3 0 r t) 0 = bb :=
    Fin.ext (by show bb.val + 1 * 0 = bb.val; omega)
  have e1 : (Rect.unit (s := S8x256x1024) ![bb.val, 0, 0] S1x256x1024.size inbo).emb (ix3 0 r t) 1 = r :=
    Fin.ext (by show 0 + 1 * r.val = r.val; omega)
  have e2 : (Rect.unit (s := S8x256x1024) ![bb.val, 0, 0] S1x256x1024.size inbo).emb (ix3 0 r t) 2 = t :=
    Fin.ext (by show 0 + 1 * t.val = t.val; omega)
  simp only [e0, e1, e2]
  rfl

/-- One stored piece of the output block is the block's function at the piece's indices. -/
theorem piece_out (hq : offq = ![(i 1).val * 256, bb.val, 0]) (hk : offk = ![0, bb.val, 0]) (hm : offm = ![bb.val, 0])
    (offo : Fin 3 → Nat) (inbo : ∀ a, offo a + S256x1x512.size a ≤ S256x8x512.size a) (ho : offo = ![0, bb.val, 0])
    (x : S256x1x512.Idx) :
    k0_pay13 (F := Ideal) (k0_pay4 i) (View.ld x0 (Rect.unit (s := S1024x8x512) offq S256x1x512.size inbq))
        (View.ld x0 (Rect.unit (s := S1024x8x512) offk S1024x1x512.size inbk))
        (View.ld x1 (Rect.unit (s := S8x1024) offm S1x1024.size inbm)) x
      = blkOut i x0 x1 ((Rect.unit (s := S256x8x512) offo S256x1x512.size inbo).emb x) := by
  obtain ⟨r, z, d, rfl⟩ : ∃ (r : Fin 256) (z : Fin 1) (d : Fin 512), x = ix3 r z d := ⟨x 0, x 1, x 2, eq_ix3 x⟩
  obtain rfl : z = 0 := Subsingleton.elim _ _
  refine (out_batch (k0_pay4 i) _ _ _ ((i 1).val * 256) (tile_le i) (eye_iff i)
    (q_ld i x0 bb offq inbq offk inbk hq hk (tile_le i)) r d).trans ?_
  rw [rows_ld x0 bb offk inbk hk, words_ld x1 bb offm inbm hm]
  subst ho
  unfold blkOut
  have e0 : (Rect.unit (s := S256x8x512) ![0, bb.val, 0] S256x1x512.size inbo).emb (ix3 r 0 d) 0 = r :=
    Fin.ext (by show 0 + 1 * r.val = r.val; omega)
  have e1 : (Rect.unit (s := S256x8x512) ![0, bb.val, 0] S256x1x512.size inbo).emb (ix3 r 0 d) 1 = bb :=
    Fin.ext (by show bb.val + 1 * 0 = bb.val; omega)
  have e2 : (Rect.unit (s := S256x8x512) ![0, bb.val, 0] S256x1x512.size inbo).emb (ix3 r 0 d) 2 = d :=
    Fin.ext (by show 0 + 1 * d.val = d.val; omega)
  simp only [e0, e1, e2]
  rfl

end Piece

/-! ## The two output blocks of a grid point -/

/-- The run's eight pieces for this output agree with one function of the block index, and cover the block. -/
theorem attn_block (c : Dev nD) (i : grid0.Coords) (arg2 : Memref sig .tc .vmem S1024x8x512 .f32) (harg2 : arg2.IsWhole) (arg3 : Memref sig .tc .vmem S8x1024 .i32) (harg3 : arg3.IsWhole) (arg4 : Memref sig .tc .vmem S256x8x512 .f32) (harg4 : arg4.IsWhole) (arg5 : Memref sig .tc .vmem S8x256x1024 .f32) (harg5 : arg5.IsWhole)
    (x0 : Vec Ideal S1024x8x512 .f32) (x1 : Vec Ideal S8x1024 .i32) :
    out0_A_3 (F := Ideal) c i arg2 harg2 arg3 harg3 arg4 harg4 arg5 harg5 x0 x1 = blkAlpha i x0 x1 := by
  funext y
  have hc := cover0_A_3 (F := Ideal) c i arg2 harg2 arg3 harg3 arg4 harg4 arg5 harg5 x0 x1 y
  unfold out0_A_3
  rw [View.read_writes_eq_canon _ _ _ (cover0_A_3 c i arg2 harg2 arg3 harg3 arg4 harg4 arg5 harg5 x0 x1)]
  revert hc
  unfold kernelRun0_A
  dsimp only
  sl_unfold_words
  simp only [View.readAt_eq_ld, harg2.read_unread, harg3.read_unread]
  intro hc
  refine View.canon_apply_of_pieces (blkAlpha i x0 x1) _ ?_ y hc
  intro p hp
  simp only [List.mem_cons, List.not_mem_nil, or_false] at hp
  rcases hp with rfl | rfl | rfl | rfl | rfl | rfl | rfl | rfl
  · intro x
    dsimp only
    rw [alpha7]
    refine piece_alpha i x0 x1 (7 : Fin 8) _ _ _ _ _ _ ?_ ?_ ?_ _ _ ?_ x
    · exact congrArg (fun n : Nat => (![n, 7, 0] : Fin 3 → Nat)) (tile_off (i 1))
    · rfl
    · rfl
    · rfl
  · intro x
    dsimp only
    rw [alpha6]
    refine piece_alpha i x0 x1 (6 : Fin 8) _ _ _ _ _ _ ?_ ?_ ?_ _ _ ?_ x
    · exact congrArg (fun n : Nat => (![n, 6, 0] : Fin 3 → Nat)) (tile_off (i 1))
    · rfl
    · rfl
    · rfl
  · intro x
    dsimp only
    rw [alpha5]
    refine piece_alpha i x0 x1 (5 : Fin 8) _ _ _ _ _ _ ?_ ?_ ?_ _ _ ?_ x
    · exact congrArg (fun n : Nat => (![n, 5, 0] : Fin 3 → Nat)) (tile_off (i 1))
    · rfl
    · rfl
    · rfl
  · intro x
    dsimp only
    rw [alpha4]
    refine piece_alpha i x0 x1 (4 : Fin 8) _ _ _ _ _ _ ?_ ?_ ?_ _ _ ?_ x
    · exact congrArg (fun n : Nat => (![n, 4, 0] : Fin 3 → Nat)) (tile_off (i 1))
    · rfl
    · rfl
    · rfl
  · intro x
    dsimp only
    rw [alpha3]
    refine piece_alpha i x0 x1 (3 : Fin 8) _ _ _ _ _ _ ?_ ?_ ?_ _ _ ?_ x
    · exact congrArg (fun n : Nat => (![n, 3, 0] : Fin 3 → Nat)) (tile_off (i 1))
    · rfl
    · rfl
    · rfl
  · intro x
    dsimp only
    rw [alpha2]
    refine piece_alpha i x0 x1 (2 : Fin 8) _ _ _ _ _ _ ?_ ?_ ?_ _ _ ?_ x
    · exact congrArg (fun n : Nat => (![n, 2, 0] : Fin 3 → Nat)) (tile_off (i 1))
    · rfl
    · rfl
    · rfl
  · intro x
    dsimp only
    skip
    refine piece_alpha i x0 x1 (1 : Fin 8) _ _ _ _ _ _ ?_ ?_ ?_ _ _ ?_ x
    · exact congrArg (fun n : Nat => (![n, 1, 0] : Fin 3 → Nat)) (tile_off (i 1))
    · rfl
    · rfl
    · rfl
  · intro x
    dsimp only
    rw [alpha0]
    refine piece_alpha i x0 x1 (0 : Fin 8) _ _ _ _ _ _ ?_ ?_ ?_ _ _ ?_ x
    · exact congrArg (fun n : Nat => (![n, 0, 0] : Fin 3 → Nat)) (tile_off (i 1))
    · rfl
    · rfl
    · rfl

/-- The run's eight pieces for this output agree with one function of the block index, and cover the block. -/
theorem out_block (c : Dev nD) (i : grid0.Coords) (arg2 : Memref sig .tc .vmem S1024x8x512 .f32) (harg2 : arg2.IsWhole) (arg3 : Memref sig .tc .vmem S8x1024 .i32) (harg3 : arg3.IsWhole) (arg4 : Memref sig .tc .vmem S256x8x512 .f32) (harg4 : arg4.IsWhole) (arg5 : Memref sig .tc .vmem S8x256x1024 .f32) (harg5 : arg5.IsWhole)
    (x0 : Vec Ideal S1024x8x512 .f32) (x1 : Vec Ideal S8x1024 .i32) :
    out0_A_2 (F := Ideal) c i arg2 harg2 arg3 harg3 arg4 harg4 arg5 harg5 x0 x1 = blkOut i x0 x1 := by
  funext y
  have hc := cover0_A_2 (F := Ideal) c i arg2 harg2 arg3 harg3 arg4 harg4 arg5 harg5 x0 x1 y
  unfold out0_A_2
  rw [View.read_writes_eq_canon _ _ _ (cover0_A_2 c i arg2 harg2 arg3 harg3 arg4 harg4 arg5 harg5 x0 x1)]
  revert hc
  unfold kernelRun0_A
  dsimp only
  sl_unfold_words
  simp only [View.readAt_eq_ld, harg2.read_unread, harg3.read_unread]
  intro hc
  refine View.canon_apply_of_pieces (blkOut i x0 x1) _ ?_ y hc
  intro p hp
  simp only [List.mem_cons, List.not_mem_nil, or_false] at hp
  rcases hp with rfl | rfl | rfl | rfl | rfl | rfl | rfl | rfl
  · intro x
    dsimp only
    rw [out7]
    refine piece_out i x0 x1 (7 : Fin 8) _ _ _ _ _ _ ?_ ?_ ?_ _ _ ?_ x
    · exact congrArg (fun n : Nat => (![n, 7, 0] : Fin 3 → Nat)) (tile_off (i 1))
    · rfl
    · rfl
    · rfl
  · intro x
    dsimp only
    rw [out6]
    refine piece_out i x0 x1 (6 : Fin 8) _ _ _ _ _ _ ?_ ?_ ?_ _ _ ?_ x
    · exact congrArg (fun n : Nat => (![n, 6, 0] : Fin 3 → Nat)) (tile_off (i 1))
    · rfl
    · rfl
    · rfl
  · intro x
    dsimp only
    rw [out5]
    refine piece_out i x0 x1 (5 : Fin 8) _ _ _ _ _ _ ?_ ?_ ?_ _ _ ?_ x
    · exact congrArg (fun n : Nat => (![n, 5, 0] : Fin 3 → Nat)) (tile_off (i 1))
    · rfl
    · rfl
    · rfl
  · intro x
    dsimp only
    rw [out4]
    refine piece_out i x0 x1 (4 : Fin 8) _ _ _ _ _ _ ?_ ?_ ?_ _ _ ?_ x
    · exact congrArg (fun n : Nat => (![n, 4, 0] : Fin 3 → Nat)) (tile_off (i 1))
    · rfl
    · rfl
    · rfl
  · intro x
    dsimp only
    rw [out3]
    refine piece_out i x0 x1 (3 : Fin 8) _ _ _ _ _ _ ?_ ?_ ?_ _ _ ?_ x
    · exact congrArg (fun n : Nat => (![n, 3, 0] : Fin 3 → Nat)) (tile_off (i 1))
    · rfl
    · rfl
    · rfl
  · intro x
    dsimp only
    rw [out2]
    refine piece_out i x0 x1 (2 : Fin 8) _ _ _ _ _ _ ?_ ?_ ?_ _ _ ?_ x
    · exact congrArg (fun n : Nat => (![n, 2, 0] : Fin 3 → Nat)) (tile_off (i 1))
    · rfl
    · rfl
    · rfl
  · intro x
    dsimp only
    skip
    refine piece_out i x0 x1 (1 : Fin 8) _ _ _ _ _ _ ?_ ?_ ?_ _ _ ?_ x
    · exact congrArg (fun n : Nat => (![n, 1, 0] : Fin 3 → Nat)) (tile_off (i 1))
    · rfl
    · rfl
    · rfl
  · intro x
    dsimp only
    rw [out0]
    refine piece_out i x0 x1 (0 : Fin 8) _ _ _ _ _ _ ?_ ?_ ?_ _ _ ?_ x
    · exact congrArg (fun n : Nat => (![n, 0, 0] : Fin 3 → Nat)) (tile_off (i 1))
    · rfl
    · rfl
    · rfl

end Cert.KernelIdeal.BlockValue

end
-- ==== Proof.ArrayValue.lean ====
/-
  From the grid's blocks to the two result arrays.

  The grid is 4 × 4: point (bi, qi) stages batches 8·bi … 8·bi + 7 (all 1024 rows of each, and their mask words) and
  writes back the attention block `[8, 256, 1024]` at block index (bi, qi, 0) and the output block `[256, 8, 512]` at
  block index (qi, bi, 0). Read through its window, what a point writes back is the restriction to that block of ONE
  function of the whole argument arrays — `alphaArr`, resp. `outArr`: batch `bb` of the staged block is batch
  8·bi + bb of the array, and row `r` of the tile is row 256·qi + r. The sixteen blocks tile each result array, so
  after the run the arrays hold `alphaArr` and `outArr` of the arguments.
-/
import proofs.«402815_j3109556322512_4_alg».proof.Proof.Gen.KernelIdeal.Value
import proofs.«402815_j3109556322512_4_alg».proof.Proof.BlockValue

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.MaskedAttn Cert.KernelIdeal.BlockValue

variable (m : (ℓ : Loc nD τ sig) → Buf (Elt Ideal) ℓ) (ρ : Dev nD → PrngReg)

/-- The two argument arrays as the region finds them, at their literal types. -/
abbrev harr (c : Dev nD) : S1024x32x512.Idx → EReal := V m c main_arg0
abbrev marr (c : Dev nD) : S32x1024.Idx → BitVec 32 := V m c main_arg1

/-- The two staged input blocks of point `t`, at their literal types. -/
abbrev hblk (c : Dev nD) (t : Fin cfg0.N) : Vec Ideal S1024x8x512 .f32 := iblk m c 0 t
abbrev mblk (c : Dev nD) (t : Fin cfg0.N) : Vec Ideal S8x1024 .i32 := iblk m c 1 t

/-- The printed index maps over the grid: the inputs' blocks move with the batch group, the outputs' with both axes. -/
theorem idx_facts : ∀ t : Fin cfg0.N,
    win0_0.index t (0 : Fin 3) = 0 ∧ win0_0.index t (1 : Fin 3) = (grid0.coords t 0).val ∧ win0_0.index t (2 : Fin 3) = 0
    ∧ win0_1.index t (0 : Fin 2) = (grid0.coords t 0).val ∧ win0_1.index t (1 : Fin 2) = 0
    ∧ win0_2.index t (0 : Fin 3) = (grid0.coords t 1).val ∧ win0_2.index t (1 : Fin 3) = (grid0.coords t 0).val ∧ win0_2.index t (2 : Fin 3) = 0
    ∧ win0_3.index t (0 : Fin 3) = (grid0.coords t 0).val ∧ win0_3.index t (1 : Fin 3) = (grid0.coords t 1).val ∧ win0_3.index t (2 : Fin 3) = 0
    ∧ (grid0.coords t 0).val < 4 ∧ (grid0.coords t 1).val < 4 :=
  (by decide +kernel : ∀ t : Fin grid0.N, _)

/-- Every (batch group, query tile) pair is some point's. -/
theorem idx_onto : ∀ (a b : Fin 4), ∃ t : Fin cfg0.N, (grid0.coords t 0).val = a.val ∧ (grid0.coords t 1).val = b.val :=
  (by decide +kernel : ∀ (a b : Fin 4), ∃ t : Fin grid0.N, (grid0.coords t 0).val = a.val ∧ (grid0.coords t 1).val = b.val)

/-- Batch `bb` of the staged input block is batch `8·bi + bb` of the array. -/
theorem hblk_apply (c : Dev nD) (t : Fin cfg0.N) (s : Fin 1024) (bb : Fin 8) (d : Fin 512) (b : Fin 32)
    (hb : b.val = (grid0.coords t 0).val * 8 + bb.val) :
    hblk m c t (ix3 s bb d) = harr m c (ix3 s b d) := by
  obtain ⟨e0, e1, e2, -⟩ := idx_facts t
  show V m c main_arg0 (((cfg0.win 0).blk t).view.emb (ix3 s bb d)) = V m c main_arg0 (ix3 s b d)
  refine congrArg (V m c main_arg0) (funext fun a => Fin.ext ?_)
  match a with
  | ⟨0, _⟩ => show win0_0.index t (0 : Fin 3) * 1024 + 1 * s.val = s.val; omega
  | ⟨1, _⟩ => show win0_0.index t (1 : Fin 3) * 8 + 1 * bb.val = b.val; omega
  | ⟨2, _⟩ => show win0_0.index t (2 : Fin 3) * 512 + 1 * d.val = d.val; omega

/-- Row `bb` of the staged mask block is row `8·bi + bb` of the mask. -/
theorem mblk_apply (c : Dev nD) (t : Fin cfg0.N) (bb : Fin 8) (k : Fin 1024) (b : Fin 32)
    (hb : b.val = (grid0.coords t 0).val * 8 + bb.val) :
    mblk m c t (ix2 bb k) = marr m c (ix2 b k) := by
  obtain ⟨-, -, -, e3, e4, -⟩ := idx_facts t
  show V m c main_arg1 (((cfg0.win 1).blk t).view.emb (ix2 bb k)) = V m c main_arg1 (ix2 b k)
  refine congrArg (V m c main_arg1) (funext fun a => Fin.ext ?_)
  match a with
  | ⟨0, _⟩ => show win0_1.index t (0 : Fin 2) * 8 + 1 * bb.val = b.val; omega
  | ⟨1, _⟩ => show win0_1.index t (1 : Fin 2) * 1024 + 1 * k.val = k.val; omega

/-! ## The attention weights (output window 3) -/

/-- What point `t` writes back to the attention array is block `t` of `alphaArr` of the argument arrays. -/
theorem flushed3_eq (c : Dev nD) (t : Fin cfg0.N) :
    (dats m 0 c).flushed 3 t = ((cfg0.win 3).blk t).view.read (Elt Ideal) (alphaArr (harr m c) (marr m c)) := by
  refine (Value.flushed3_A m c t).trans ?_
  rw [attn_block c (grid0.coords t) (ms0_0 t) (hs0_0 t) (ms0_1 t) (hs0_1 t) (ms0_2 t) (hs0_2 t) (ms0_3 t) (hs0_3 t) (hblk m c t) (mblk m c t)]
  obtain ⟨-, -, -, -, -, -, -, -, e8, e9, e10, h0, h1⟩ := idx_facts t
  funext y
  show blkAlpha (grid0.coords t) (hblk m c t) (mblk m c t) y
    = alphaArr (harr m c) (marr m c) (((cfg0.win 3).blk t).view.emb y)
  have hy0 : (y 0).val < 8 := (y 0).isLt
  have hy1 : (y 1).val < 256 := (y 1).isLt
  have hy2 : (y 2).val < 1024 := (y 2).isLt
  have he0 : ((((cfg0.win 3).blk t).view.emb y) 0).val = (grid0.coords t 0).val * 8 + (y 0).val := by
    show win0_3.index t (0 : Fin 3) * 8 + 1 * (y 0).val = _; omega
  have he1 : ((((cfg0.win 3).blk t).view.emb y) 1).val = (grid0.coords t 1).val * 256 + (y 1).val := by
    show win0_3.index t (1 : Fin 3) * 256 + 1 * (y 1).val = _; omega
  have he2 : ((((cfg0.win 3).blk t).view.emb y) 2).val = (y 2).val := by
    show win0_3.index t (2 : Fin 3) * 1024 + 1 * (y 2).val = _; omega
  unfold blkAlpha alphaArr
  have hK : (fun s d => hblk m c t (ix3 s (y 0) d)) = keys (harr m c) ((((cfg0.win 3).blk t).view.emb y) 0) :=
    funext fun s => funext fun d => hblk_apply m c t s (y 0) d _ he0
  have hM : (fun k => mblk m c t (ix2 (y 0) k)) = maskRow (marr m c) ((((cfg0.win 3).blk t).view.emb y) 0) :=
    funext fun k => mblk_apply m c t (y 0) k _ he0
  have hR : qrow (grid0.coords t 1) (y 1) = (((cfg0.win 3).blk t).view.emb y) 1 := Fin.ext he1.symm
  have hC : y 2 = (((cfg0.win 3).blk t).view.emb y) 2 := Fin.ext he2.symm
  rw [hK, hM, hR]
  exact congrArg _ hC

/-- An index of the attention array is in point `t`'s block iff each coordinate is in the block's range on its axis. -/
theorem mem_blk3 (t : Fin cfg0.N) (j : S32x1024x1024.Idx) :
    j ∈ ((cfg0.win 3).blk t).view.set ↔ ∀ a : Fin 3, win0_3.index t a * S8x256x1024.size a ≤ (j a).val
      ∧ (j a).val < win0_3.index t a * S8x256x1024.size a + S8x256x1024.size a := by
  show j ∈ ((View.whole main_v0_1).slice (win0_3.rect t)).set ↔ _
  rw [View.set_slice_whole, Rect.mem_set_unit]
  exact Iff.rfl

/-- The sixteen attention blocks tile the array: batch `b` lies in group `b / 8`, query `s` in tile `s / 256`. -/
theorem cover3 (j : S32x1024x1024.Idx) :
    ∃ t : Fin cfg0.N, (cfg0.win 3).flush t = true ∧ j ∈ ((cfg0.win 3).blk t).view.set := by
  have hj0 : (j 0).val < 32 := (j 0).isLt
  have hj1 : (j 1).val < 1024 := (j 1).isLt
  have hj2 : (j 2).val < 1024 := (j 2).isLt
  obtain ⟨t, ht0, ht1⟩ := idx_onto ⟨(j 0).val / 8, by omega⟩ ⟨(j 1).val / 256, by omega⟩
  have ht0' : (grid0.coords t 0).val = (j 0).val / 8 := ht0
  have ht1' : (grid0.coords t 1).val = (j 1).val / 256 := ht1
  obtain ⟨-, -, -, -, -, -, -, -, e8, e9, e10, -⟩ := idx_facts t
  refine ⟨t, flush0_3 t, ?_⟩
  rw [mem_blk3]
  intro a
  match a with
  | ⟨0, _⟩ => show win0_3.index t (0 : Fin 3) * 8 ≤ (j 0).val ∧ (j 0).val < win0_3.index t (0 : Fin 3) * 8 + 8; omega
  | ⟨1, _⟩ => show win0_3.index t (1 : Fin 3) * 256 ≤ (j 1).val ∧ (j 1).val < win0_3.index t (1 : Fin 3) * 256 + 256; omega
  | ⟨2, _⟩ => show win0_3.index t (2 : Fin 3) * 1024 ≤ (j 2).val ∧ (j 2).val < win0_3.index t (2 : Fin 3) * 1024 + 1024; omega

/-- After the run the attention array is `alphaArr` of the argument arrays. -/
theorem final3 (c : Dev nD) : (dats m 0 c).arrAt 3 cfg0.N = alphaArr (harr m c) (marr m c) :=
  (dats m 0 c).arrAt_eq_of_cover 3 (alphaArr (harr m c) (marr m c)) (fun t _ => flushed3_eq m c t) cover3

/-! ## The attended values (output window 2) -/

/-- What point `t` writes back to the output array is block `t` of `outArr` of the argument arrays. -/
theorem flushed2_eq (c : Dev nD) (t : Fin cfg0.N) :
    (dats m 0 c).flushed 2 t = ((cfg0.win 2).blk t).view.read (Elt Ideal) (outArr (harr m c) (marr m c)) := by
  refine (Value.flushed2_A m c t).trans ?_
  rw [out_block c (grid0.coords t) (ms0_0 t) (hs0_0 t) (ms0_1 t) (hs0_1 t) (ms0_2 t) (hs0_2 t) (ms0_3 t) (hs0_3 t) (hblk m c t) (mblk m c t)]
  obtain ⟨-, -, -, -, -, e5, e6, e7, -, -, -, h0, h1⟩ := idx_facts t
  funext y
  show blkOut (grid0.coords t) (hblk m c t) (mblk m c t) y
    = outArr (harr m c) (marr m c) (((cfg0.win 2).blk t).view.emb y)
  have hy0 : (y 0).val < 256 := (y 0).isLt
  have hy1 : (y 1).val < 8 := (y 1).isLt
  have hy2 : (y 2).val < 512 := (y 2).isLt
  have he0 : ((((cfg0.win 2).blk t).view.emb y) 0).val = (grid0.coords t 1).val * 256 + (y 0).val := by
    show win0_2.index t (0 : Fin 3) * 256 + 1 * (y 0).val = _; omega
  have he1 : ((((cfg0.win 2).blk t).view.emb y) 1).val = (grid0.coords t 0).val * 8 + (y 1).val := by
    show win0_2.index t (1 : Fin 3) * 8 + 1 * (y 1).val = _; omega
  have he2 : ((((cfg0.win 2).blk t).view.emb y) 2).val = (y 2).val := by
    show win0_2.index t (2 : Fin 3) * 512 + 1 * (y 2).val = _; omega
  unfold blkOut outArr
  have hK : (fun s d => hblk m c t (ix3 s (y 1) d)) = keys (harr m c) ((((cfg0.win 2).blk t).view.emb y) 1) :=
    funext fun s => funext fun d => hblk_apply m c t s (y 1) d _ he1
  have hM : (fun k => mblk m c t (ix2 (y 1) k)) = maskRow (marr m c) ((((cfg0.win 2).blk t).view.emb y) 1) :=
    funext fun k => mblk_apply m c t (y 1) k _ he1
  have hR : qrow (grid0.coords t 1) (y 0) = (((cfg0.win 2).blk t).view.emb y) 0 := Fin.ext he0.symm
  have hC : y 2 = (((cfg0.win 2).blk t).view.emb y) 2 := Fin.ext he2.symm
  rw [hK, hM, hR]
  exact congrArg _ hC

/-- An index of the output array is in point `t`'s block iff each coordinate is in the block's range on its axis. -/
theorem mem_blk2 (t : Fin cfg0.N) (j : S1024x32x512.Idx) :
    j ∈ ((cfg0.win 2).blk t).view.set ↔ ∀ a : Fin 3, win0_2.index t a * S256x8x512.size a ≤ (j a).val
      ∧ (j a).val < win0_2.index t a * S256x8x512.size a + S256x8x512.size a := by
  show j ∈ ((View.whole main_v0_0).slice (win0_2.rect t)).set ↔ _
  rw [View.set_slice_whole, Rect.mem_set_unit]
  exact Iff.rfl

/-- The sixteen output blocks tile the array: query `s` lies in tile `s / 256`, batch `b` in group `b / 8`. -/
theorem cover2 (j : S1024x32x512.Idx) :
    ∃ t : Fin cfg0.N, (cfg0.win 2).flush t = true ∧ j ∈ ((cfg0.win 2).blk t).view.set := by
  have hj0 : (j 0).val < 1024 := (j 0).isLt
  have hj1 : (j 1).val < 32 := (j 1).isLt
  have hj2 : (j 2).val < 512 := (j 2).isLt
  obtain ⟨t, ht0, ht1⟩ := idx_onto ⟨(j 1).val / 8, by omega⟩ ⟨(j 0).val / 256, by omega⟩
  have ht0' : (grid0.coords t 0).val = (j 1).val / 8 := ht0
  have ht1' : (grid0.coords t 1).val = (j 0).val / 256 := ht1
  obtain ⟨-, -, -, -, -, e5, e6, e7, -⟩ := idx_facts t
  refine ⟨t, flush0_2 t, ?_⟩
  rw [mem_blk2]
  intro a
  match a with
  | ⟨0, _⟩ => show win0_2.index t (0 : Fin 3) * 256 ≤ (j 0).val ∧ (j 0).val < win0_2.index t (0 : Fin 3) * 256 + 256; omega
  | ⟨1, _⟩ => show win0_2.index t (1 : Fin 3) * 8 ≤ (j 1).val ∧ (j 1).val < win0_2.index t (1 : Fin 3) * 8 + 8; omega
  | ⟨2, _⟩ => show win0_2.index t (2 : Fin 3) * 512 ≤ (j 2).val ∧ (j 2).val < win0_2.index t (2 : Fin 3) * 512 + 512; omega

/-- After the run the output array is `outArr` of the argument arrays. -/
theorem final2 (c : Dev nD) : (dats m 0 c).arrAt 2 cfg0.N = outArr (harr m c) (marr m c) :=
  (dats m 0 c).arrAt_eq_of_cover 2 (outArr (harr m c) (marr m c)) (fun t _ => flushed2_eq m c t) cover2

/-! ## The run -/

/-- Every weakly fair execution of the idealized kernel ends with the two result arrays at `outArr` and `alphaArr` of
    the argument arrays, the arguments unchanged. -/
theorem run : θ_run defs (onTc (τ := τ) (main (F := Ideal))) ⟨m, fun _ => 0, ρ⟩ fun r => ∀ c : Dev nD,
      r.2.mem ((c : Thread nD τ).loc main_v0_0) = outArr (harr m c) (marr m c)
      ∧ r.2.mem ((c : Thread nD τ).loc main_v0_1) = alphaArr (harr m c) (marr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (Value.run_blocks m ρ)

end Cert.KernelIdeal.ArrayValue

end
-- ==== Proof.lean ====
/-
  Masked self-attention over `h : [1024, 32, 512]` with integer key masks `h_mask : [32, 1024]`: a Pallas kernel on a
  4 × 4 grid (eight batches and 256 query rows per point, all 1024 keys resident) against the jnp reference.

  Both programs compute, per batch, with `μ t` the key's mask word as a real:
    masked s t = (0 if s = t else Σ_d h[s]·h[t]) · μ t,   weight s t = exp (masked s t − max_t masked s t) · μ t,
    alpha s t = weight s t / (Σ_t weight s t + ε),         out s = Σ_t alpha s t · h[t].
  At the ideal instance the two differ only in tiling, in where transposes and unit axes sit, and in how the sums are
  grouped; the exponential, the quotient, the integer-to-float conversion and the three literals (0, −∞, ε: the same f32
  words on both sides) are one function each on both sides. So both results are the same functions `outArr` / `alphaArr`
  (Proof/Spec.lean) of the argument arrays, with no use of the inputs' finiteness:
    · the reference's run is read stage by stage to them (Proof/RefValue.lean);
    · one batch of the kernel body is read to `alpha` / `out` of that batch's rows (Proof/BatchValue.lean), the eight
      batches of a point are that one term (Proof/Chains.lean), a point's blocks are those of the staged rows
      (Proof/BlockValue.lean), and the sixteen blocks tile the arrays (Proof/ArrayValue.lean).
  The three frames are the programs' runs; the ideal pass rewrote nothing, so `preserves` has no conjunct.
-/
import proofs.«402815_j3109556322512_4_alg».proof.Defs
import proofs.«402815_j3109556322512_4_alg».proof.Proof.Gen.Kernel
import proofs.«402815_j3109556322512_4_alg».proof.Proof.Gen.Kernel.Skeleton
import proofs.«402815_j3109556322512_4_alg».proof.Proof.Gen.Kernel.Launch
import proofs.«402815_j3109556322512_4_alg».proof.Proof.Gen.Kernel.Points
import proofs.«402815_j3109556322512_4_alg».proof.Proof.Gen.Kernel.Frame
import proofs.«402815_j3109556322512_4_alg».proof.Proof.Gen.KernelIdeal
import proofs.«402815_j3109556322512_4_alg».proof.Proof.Gen.KernelIdeal.Skeleton
import proofs.«402815_j3109556322512_4_alg».proof.Proof.Gen.KernelIdeal.Launch
import proofs.«402815_j3109556322512_4_alg».proof.Proof.Gen.KernelIdeal.Points
import proofs.«402815_j3109556322512_4_alg».proof.Proof.Gen.KernelIdeal.Frame
import proofs.«402815_j3109556322512_4_alg».proof.Proof.Gen.ReferenceIdeal
import proofs.«402815_j3109556322512_4_alg».proof.Proof.Gen.Pre_finite_inputs
import proofs.«402815_j3109556322512_4_alg».proof.Proof.Gen.KernelIdeal.Value
import proofs.«402815_j3109556322512_4_alg».proof.Proof.Gen.ReferenceIdeal.Run
import proofs.«402815_j3109556322512_4_alg».proof.Proof.Gen.ReferenceIdeal.Read
import proofs.«402815_j3109556322512_4_alg».proof.Proof.RefValue
import proofs.«402815_j3109556322512_4_alg».proof.Proof.ArrayValue
import Idealize.ShloMosaic.Adequacy
import Idealize.ShloMosaic.Init

noncomputable section

namespace Cert.Proof

open Idealize.ShloMosaic Idealize.ShloMosaic.TcCoe Idealize.SL.Sem Cert.MaskedAttn

/-- The word-level kernel runs and keeps its arguments. -/
theorem frame_k [Cert.Kernel.Facts] [Cert.Pre_finite_inputs.Facts] : Cert.frame_Kernel :=
  fun m ρ _ => Cert.Kernel.Gen.frame m ρ

/-- The idealized kernel runs and keeps its arguments. -/
theorem frame_ki [Cert.KernelIdeal.Facts] [Cert.Pre_finite_inputs.Facts] : Cert.frame_KernelIdeal :=
  fun m ρ _ => Cert.KernelIdeal.Gen.frame m ρ

/-- The reference runs and keeps its arguments: its run with the results dropped. -/
theorem frame_ri [Cert.ReferenceIdeal.Facts] [Cert.Pre_finite_inputs.Facts] : Cert.frame_ReferenceIdeal :=
  fun m ρ _ => (θ_run Cert.ReferenceIdeal.defs _ _).mono (fun _ h c => ⟨(h c).2.2.1, (h c).2.2.2⟩)
    (Cert.ReferenceIdeal.Value.run (F := Ideal) m ρ)

/-- From memories that agree on the arguments both programs end with the attended values `outArr` and the attention
    weights `alphaArr` of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.Read.val_main_v27_eq, Cert.ReferenceIdeal.RefValue.ref_out, (hagree c).1, (hagree c).2]
  · rw [Cert.ReferenceIdeal.Read.val_main_v25_eq, Cert.ReferenceIdeal.RefValue.ref_alpha, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
